-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S25000x128 : Shape := ⟨2, ![25000, 128]⟩
abbrev S2x400000 : Shape := ⟨2, ![2, 400000]⟩
abbrev S400000x128 : Shape := ⟨2, ![400000, 128]⟩
abbrev S1x128 : Shape := ⟨2, ![1, 128]⟩
abbrev S512x128 : Shape := ⟨2, ![512, 128]⟩
abbrev S128 : Shape := ⟨1, ![128]⟩
abbrev S128x128 : Shape := ⟨2, ![128, 128]⟩
abbrev S_ : Shape := ⟨0, ![]⟩

class Facts : Prop where
  bcast_S_S25000x128 : S_.BroadcastsInDim S25000x128 (![] : Fin 0 → Fin S25000x128.rank)
  reducesTo_S25000x128_S_d0_1 : S25000x128.ReducesTo [0, 1] S_
  h_S_ : 0 < S_.numel
  bcast_S_S400000x128 : S_.BroadcastsInDim S400000x128 (![] : Fin 0 → Fin S400000x128.rank)
  reducesTo_S400000x128_S_d0_1 : S400000x128.ReducesTo [0, 1] S_
  bcast_S_S1x128 : S_.BroadcastsInDim S1x128 (![] : Fin 0 → Fin S1x128.rank)
  reducesTo_S1x128_S_d0_1 : S1x128.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128 .f32) (main_arg9 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S25000x128 .f32) (main_arg1 : IVec S2x400000 32) (main_arg2 : FVec F S400000x128 .f32) (main_arg3 : FVec F S1x128 .f32) (main_arg4 : FVec F S512x128 .f32) (main_arg5 : FVec F S128 .f32) (main_arg6 : FVec F S128x128 .f32) (main_arg7 : FVec F S128 .f32) (main_arg8 : FVec F S128 .f32) (main_arg9 : FVec F S128 .f32) : IVec S_ 1 :=
  let main_v0 : FVec F S25000x128 .f32 := Host.absf main_arg0
  let main_cst : FVec F S_ .f32 := constant S_ .f32 0x7F800000#32
  let main_v1 : FVec F S25000x128 .f32 := broadcastInDim S25000x128 ![] bcast_S_S25000x128 main_cst
  let main_v2 : IVec S25000x128 1 := cmpf .olt main_v0 main_v1
  let main_c : IVec S_ 1 := constantI S_ 1 1#1
  let main_v3 : IVec S_ 1 := (fun x v => Host.reduce IntOp.andi x v reducesTo_S25000x128_S_d0_1 h_S_) main_v2 main_c
  let main_v4 : FVec F S400000x128 .f32 := Host.absf main_arg2
  let main_cst_0 : FVec F S_ .f32 := constant S_ .f32 0x7F800000#32
  let main_v5 : FVec F S400000x128 .f32 := broadcastInDim S400000x128 ![] bcast_S_S400000x128 main_cst_0
  let main_v6 : IVec S400000x128 1 := cmpf .olt main_v4 main_v5
  let main_c_1 : IVec S_ 1 := constantI S_ 1 1#1
  let main_v7 : IVec S_ 1 := (fun x v => Host.reduce IntOp.andi x v reducesTo_S400000x128_S_d0_1 h_S_) main_v6 main_c_1
  let main_v8 : IVec S_ 1 := andi main_v3 main_v7
  let main_v9 : FVec F S1x128 .f32 := Host.absf main_arg3
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S512x128 .f32 := Host.absf main_arg4
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg5 main_arg6 main_arg7 main_arg8 main_arg9 main_v13 main_v16
-- ==== Kernel.lean ====
abbrev S25000x128 : Shape := ⟨2, ![25000, 128]⟩
abbrev S2x400000 : Shape := ⟨2, ![2, 400000]⟩
abbrev S400000x128 : Shape := ⟨2, ![400000, 128]⟩
abbrev S1x128 : Shape := ⟨2, ![1, 128]⟩
abbrev S512x128 : Shape := ⟨2, ![512, 128]⟩
abbrev S128 : Shape := ⟨1, ![128]⟩
abbrev S128x128 : Shape := ⟨2, ![128, 128]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x384 : Shape := ⟨2, ![400000, 384]⟩
abbrev S384x128 : Shape := ⟨2, ![384, 128]⟩
abbrev S5000x384 : Shape := ⟨2, ![5000, 384]⟩
abbrev S5000x128 : Shape := ⟨2, ![5000, 128]⟩
abbrev S5000 : Shape := ⟨1, ![5000]⟩
abbrev S5000x1 : Shape := ⟨2, ![5000, 1]⟩

abbrev nBuf : Space → Nat
  | .hbm => 42
  | .vmem => 10
  | .smem => 0
  | _ => 0

abbrev bufTy : (tb : Table) → Fin (tcTables nBuf tb) → BufTy
  | .hbm, ⟨0, _⟩ => ⟨S25000x128, .f32⟩
  | .hbm, ⟨1, _⟩ => ⟨S2x400000, .i32⟩
  | .hbm, ⟨2, _⟩ => ⟨S400000x128, .f32⟩
  | .hbm, ⟨3, _⟩ => ⟨S1x128, .f32⟩
  | .hbm, ⟨4, _⟩ => ⟨S512x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S1x400000, .i32⟩
  | .hbm, ⟨11, _⟩ => ⟨S400000, .i32⟩
  | .hbm, ⟨12, _⟩ => ⟨S1x400000, .i32⟩
  | .hbm, ⟨13, _⟩ => ⟨S400000, .i32⟩
  | .hbm, ⟨14, _⟩ => ⟨S_, .i32⟩
  | .hbm, ⟨15, _⟩ => ⟨S400000, .i32⟩
  | .hbm, ⟨16, _⟩ => ⟨S400000, .i1⟩
  | .hbm, ⟨17, _⟩ => ⟨S_, .i32⟩
  | .hbm, ⟨18, _⟩ => ⟨S400000, .i32⟩
  | .hbm, ⟨19, _⟩ => ⟨S400000, .i32⟩
  | .hbm, ⟨20, _⟩ => ⟨S400000, .i32⟩
  | .hbm, ⟨21, _⟩ => ⟨S400000x1, .i32⟩
  | .hbm, ⟨22, _⟩ => ⟨S400000x128, .f32⟩
  | .hbm, ⟨23, _⟩ => ⟨S_, .i32⟩
  | .hbm, ⟨24, _⟩ => ⟨S400000, .i32⟩
  | .hbm, ⟨25, _⟩ => ⟨S400000, .i1⟩
  | .hbm, ⟨26, _⟩ => ⟨S_, .i32⟩
  | .hbm, ⟨27, _⟩ => ⟨S400000, .i32⟩
  | .hbm, ⟨28, _⟩ => ⟨S400000, .i32⟩
  | .hbm, ⟨29, _⟩ => ⟨S400000, .i32⟩
  | .hbm, ⟨30, _⟩ => ⟨S400000x1, .i32⟩
  | .hbm, ⟨31, _⟩ => ⟨S400000x128, .f32⟩
  | .hbm, ⟨32, _⟩ => ⟨S400000x384, .f32⟩
  | .hbm, ⟨33, _⟩ => ⟨S384x128, .f32⟩
  | .hbm, ⟨34, _⟩ => ⟨S128x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S400000x128, .f32⟩
  | .local _ .vmem, ⟨0, _⟩ => ⟨S5000x384, .f32⟩
  | .local _ .vmem, ⟨1, _⟩ => ⟨S5000x384, .f32⟩
  | .local _ .vmem, ⟨2, _⟩ => ⟨S384x128, .f32⟩
  | .local _ .vmem, ⟨3, _⟩ => ⟨S128x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | _, _ => ⟨S25000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x128_S400000x128_S400000x384_d1 : Shape.Concatenates [S400000x128, S400000x128, S400000x128] S400000x384 1
  slices_S512x128_S384x128_0_0 : S512x128.Slices ![0, 0] S384x128
  slices_S512x128_S128x128_384_0 : S512x128.Slices ![384, 0] S128x128
  shapeCasts_S128_S1x128 : S128.ShapeCasts S1x128
  inb_S384x128_S384x128_0_0 : ∀ a, (![0, 0] : Fin 2 → Nat) a + S384x128.size a ≤ S384x128.size a
  h_S384x128 : 0 < S384x128.numel
  shapeCasts_S384x128_S384x128 : S384x128.ShapeCasts S384x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x384_S5000x384_0_0 : ∀ a, (![0, 0] : Fin 2 → Nat) a + S5000x384.size a ≤ S5000x384.size a
  h_S5000x384 : 0 < S5000x384.numel
  shapeCasts_S5000x384_S5000x384 : S5000x384.ShapeCasts S5000x384
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  gather_S25000x128_S400000x1_S400000x128_1_0_n_n_0_1_1128_wf : GatherDims.WF S25000x128 S400000x1 S400000x128 [1] [0] [] [0] [] 1 ![1, 128]
  dot_S1x128_S128x128_S1x128_1_0_0_1_n_n_wf : DotDims.WF S1x128 S128x128 S1x128 [1] [0] [0] [1] [] []
  dot_S5000x384_S384x128_S5000x128_1_0_0_1_n_n_wf : DotDims.WF S5000x384 S384x128 S5000x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x384.size a ≤ S400000x384.size a
  hwx0_0 : ∀ i : grid0.Coords, EltTy.bits .f32 = 32 ∨ (Rect.block (s := S400000x384) S5000x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x128.size a ≤ S384x128.size a
  hwx0_1 : ∀ i : grid0.Coords, EltTy.bits .f32 = 32 ∨ (Rect.block (s := S384x128) S384x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S400000x128.size a
  hwx0_7 : ∀ i : grid0.Coords, EltTy.bits .f32 = 32 ∨ (Rect.block (s := S400000x128) S5000x128.size (cc0_transform_7 i) (hinb0_7 i)).WholeWords (EltTy.packing .f32)

variable [Facts₀]

def gather_S25000x128_S400000x1_S400000x128_1_0_n_n_0_1_1128 : GatherDims S25000x128 S400000x1 S400000x128 where
  offsetDims := [1]
  collapsedSliceDims := [0]
  operandBatchingDims := []
  startIndicesBatchingDims := []
  startIndexMap := [0]
  indexVectorDim := 1
  sliceSizes := ![1, 128]
  wf := gather_S25000x128_S400000x1_S400000x128_1_0_n_n_0_1_1128_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S5000x384_S384x128_S5000x128_1_0_0_1_n_n : DotDims S5000x384 S384x128 S5000x128 where
  lhsContracting := [1]
  rhsContracting := [0]
  lhsNonContracting := [0]
  rhsNonContracting := [1]
  lhsBatch := []
  rhsBatch := []
  wf := dot_S5000x384_S384x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v18) S5000x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S25000x128 : Shape := ⟨2, ![25000, 128]⟩
abbrev S2x400000 : Shape := ⟨2, ![2, 400000]⟩
abbrev S400000x128 : Shape := ⟨2, ![400000, 128]⟩
abbrev S1x128 : Shape := ⟨2, ![1, 128]⟩
abbrev S512x128 : Shape := ⟨2, ![512, 128]⟩
abbrev S128 : Shape := ⟨1, ![128]⟩
abbrev S128x128 : Shape := ⟨2, ![128, 128]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x512 : Shape := ⟨2, ![400000, 512]⟩

abbrev nBuf : Space → Nat
  | .hbm => 75
  | .vmem => 0
  | .smem => 0
  | _ => 0

abbrev bufTy : (tb : Table) → Fin (tcTables nBuf tb) → BufTy
  | .hbm, ⟨0, _⟩ => ⟨S25000x128, .f32⟩
  | .hbm, ⟨1, _⟩ => ⟨S2x400000, .i32⟩
  | .hbm, ⟨2, _⟩ => ⟨S400000x128, .f32⟩
  | .hbm, ⟨3, _⟩ => ⟨S1x128, .f32⟩
  | .hbm, ⟨4, _⟩ => ⟨S512x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S1x400000, .i32⟩
  | .hbm, ⟨11, _⟩ => ⟨S400000, .i32⟩
  | .hbm, ⟨12, _⟩ => ⟨S1x400000, .i32⟩
  | .hbm, ⟨13, _⟩ => ⟨S400000, .i32⟩
  | .hbm, ⟨14, _⟩ => ⟨S_, .i32⟩
  | .hbm, ⟨15, _⟩ => ⟨S400000, .i32⟩
  | .hbm, ⟨16, _⟩ => ⟨S400000, .i1⟩
  | .hbm, ⟨17, _⟩ => ⟨S_, .i32⟩
  | .hbm, ⟨18, _⟩ => ⟨S400000, .i32⟩
  | .hbm, ⟨19, _⟩ => ⟨S400000, .i32⟩
  | .hbm, ⟨20, _⟩ => ⟨S400000, .i32⟩
  | .hbm, ⟨21, _⟩ => ⟨S400000x1, .i32⟩
  | .hbm, ⟨22, _⟩ => ⟨S400000x128, .f32⟩
  | .hbm, ⟨23, _⟩ => ⟨S_, .i32⟩
  | .hbm, ⟨24, _⟩ => ⟨S400000, .i32⟩
  | .hbm, ⟨25, _⟩ => ⟨S400000, .i1⟩
  | .hbm, ⟨26, _⟩ => ⟨S_, .i32⟩
  | .hbm, ⟨27, _⟩ => ⟨S400000, .i32⟩
  | .hbm, ⟨28, _⟩ => ⟨S400000, .i32⟩
  | .hbm, ⟨29, _⟩ => ⟨S400000, .i32⟩
  | .hbm, ⟨30, _⟩ => ⟨S400000x1, .i32⟩
  | .hbm, ⟨31, _⟩ => ⟨S400000x128, .f32⟩
  | .hbm, ⟨32, _⟩ => ⟨S128, .f32⟩
  | .hbm, ⟨33, _⟩ => ⟨S400000x128, .f32⟩
  | .hbm, ⟨34, _⟩ => ⟨S400000x512, .f32⟩
  | .hbm, ⟨35, _⟩ => ⟨S400000x128, .f32⟩
  | .hbm, ⟨36, _⟩ => ⟨S1x128, .f32⟩
  | .hbm, ⟨37, _⟩ => ⟨S400000x128, .f32⟩
  | .hbm, ⟨38, _⟩ => ⟨S400000x128, .f32⟩
  | .hbm, ⟨39, _⟩ => ⟨S_, .f32⟩
  | .hbm, ⟨40, _⟩ => ⟨S400000x128, .f32⟩
  | .hbm, ⟨41, _⟩ => ⟨S400000x128, .f32⟩
  | .hbm, ⟨42, _⟩ => ⟨S400000x128, .f32⟩
  | .hbm, ⟨43, _⟩ => ⟨S1x128, .f32⟩
  | .hbm, ⟨44, _⟩ => ⟨S400000x128, .f32⟩
  | .hbm, ⟨45, _⟩ => ⟨S400000x128, .f32⟩
  | .hbm, ⟨46, _⟩ => ⟨S_, .f32⟩
  | .hbm, ⟨47, _⟩ => ⟨S400000, .f32⟩
  | .hbm, ⟨48, _⟩ => ⟨S400000x1, .f32⟩
  | .hbm, ⟨49, _⟩ => ⟨S_, .f32⟩
  | .hbm, ⟨50, _⟩ => ⟨S400000x1, .f32⟩
  | .hbm, ⟨51, _⟩ => ⟨S400000x1, .f32⟩
  | .hbm, ⟨52, _⟩ => ⟨S400000x128, .f32⟩
  | .hbm, ⟨53, _⟩ => ⟨S400000x128, .f32⟩
  | .hbm, ⟨54, _⟩ => ⟨S400000x128, .f32⟩
  | .hbm, ⟨55, _⟩ => ⟨S_, .f32⟩
  | .hbm, ⟨56, _⟩ => ⟨S400000, .f32⟩
  | .hbm, ⟨57, _⟩ => ⟨S400000x1, .f32⟩
  | .hbm, ⟨58, _⟩ => ⟨S_, .f32⟩
  | .hbm, ⟨59, _⟩ => ⟨S400000x1, .f32⟩
  | .hbm, ⟨60, _⟩ => ⟨S400000x1, .f32⟩
  | .hbm, ⟨61, _⟩ => ⟨S400000x128, .f32⟩
  | .hbm, ⟨62, _⟩ => ⟨S400000x128, .f32⟩
  | .hbm, ⟨63, _⟩ => ⟨S_, .f32⟩
  | .hbm, ⟨64, _⟩ => ⟨S400000x1, .f32⟩
  | .hbm, ⟨65, _⟩ => ⟨S400000x1, .f32⟩
  | .hbm, ⟨66, _⟩ => ⟨S400000x1, .f32⟩
  | .hbm, ⟨67, _⟩ => ⟨S400000x128, .f32⟩
  | .hbm, ⟨68, _⟩ => ⟨S400000x128, .f32⟩
  | .hbm, ⟨69, _⟩ => ⟨S1x128, .f32⟩
  | .hbm, ⟨70, _⟩ => ⟨S400000x128, .f32⟩
  | .hbm, ⟨71, _⟩ => ⟨S400000x128, .f32⟩
  | .hbm, ⟨72, _⟩ => ⟨S1x128, .f32⟩
  | .hbm, ⟨73, _⟩ => ⟨S400000x128, .f32⟩
  | .hbm, ⟨74, _⟩ => ⟨S400000x128, .f32⟩
  | _, _ => ⟨S25000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call0_cst : Ref sig .tc := ⟨.hbm, 39, rfl⟩
abbrev main_call0_v0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst : Ref sig .tc := ⟨.hbm, 46, rfl⟩
abbrev main_v30 : Ref sig .tc := ⟨.hbm, 47, rfl⟩
abbrev main_v31 : Ref sig .tc := ⟨.hbm, 48, rfl⟩
abbrev main_cst_3 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_4 : Ref sig .tc := ⟨.hbm, 55, rfl⟩
abbrev main_v37 : Ref sig .tc := ⟨.hbm, 56, rfl⟩
abbrev main_v38 : Ref sig .tc := ⟨.hbm, 57, rfl⟩
abbrev main_cst_5 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_6 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  shapeCasts_S1x128_S128 : S1x128.ShapeCasts S128
  bcast_S128_S400000x128_1 : S128.BroadcastsInDim S400000x128 (![1] : Fin 1 → Fin S400000x128.rank)
  concatenates_S400000x128_S400000x128_S400000x128_S400000x128_S400000x512_d1 : Shape.Concatenates [S400000x128, S400000x128, S400000x128, S400000x128] S400000x512 1
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  reducesTo_S400000x128_S400000_d1 : S400000x128.ReducesTo [1] S400000
  h_S_ : 0 < S_.numel
  bcast_S_S400000x1 : S_.BroadcastsInDim S400000x1 (![] : Fin 0 → Fin S400000x1.rank)
  bcast_S400000x1_S400000x128_0_1 : S400000x1.BroadcastsInDim S400000x128 (![0, 1] : Fin 2 → Fin S400000x128.rank)
  gather_S25000x128_S400000x1_S400000x128_1_0_n_n_0_1_1128_wf : GatherDims.WF S25000x128 S400000x1 S400000x128 [1] [0] [] [0] [] 1 ![1, 128]
  dot_S400000x512_S512x128_S400000x128_1_0_0_1_n_n_wf : DotDims.WF S400000x512 S512x128 S400000x128 [1] [0] [0] [1] [] []
  dot_S400000x128_S128x128_S400000x128_1_0_0_1_n_n_wf : DotDims.WF S400000x128 S128x128 S400000x128 [1] [0] [0] [1] [] []

variable [Facts₀]

def gather_S25000x128_S400000x1_S400000x128_1_0_n_n_0_1_1128 : GatherDims S25000x128 S400000x1 S400000x128 where
  offsetDims := [1]
  collapsedSliceDims := [0]
  operandBatchingDims := []
  startIndicesBatchingDims := []
  startIndexMap := [0]
  indexVectorDim := 1
  sliceSizes := ![1, 128]
  wf := gather_S25000x128_S400000x1_S400000x128_1_0_n_n_0_1_1128_wf
def dot_S400000x512_S512x128_S400000x128_1_0_0_1_n_n : DotDims S400000x512 S512x128 S400000x128 where
  lhsContracting := [1]
  rhsContracting := [0]
  lhsNonContracting := [0]
  rhsNonContracting := [1]
  lhsBatch := []
  rhsBatch := []
  wf := dot_S400000x512_S512x128_S400000x128_1_0_0_1_n_n_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf

class Facts : Prop extends Facts₀ where

variable [Facts]
-- ==== Proof.FrameBits.lean ====
/-
  The word-level kernel's program runs: every weakly fair execution of the host operations followed by the one
  pipelined region terminates without a fault, the argument arrays end unchanged, and the result array ends at what the
  grid points wrote back.

  The program is 31 host operations (the two row gathers, their concatenation with the edge attributes along the
  feature axis, the slices of the first weight matrix, the effective bias, four reshapes) followed by a region over a
  grid of 80 points. At point t the body reads the 5000 x 384 block t of the concatenated input and the whole of the six
  small operands, and stores one 5000 x 128 block: a single store covering the output window, whose value is the body's
  arithmetic applied to what it loaded. The input windows are only read, so each staging buffer holds its window's
  block at every point whether or not it was fetched there. Stated at any float instance.
-/
import proofs.«404264_j45088566673702_3_alg».proof.Proof.Gen.Kernel.Launch
import proofs.«404264_j45088566673702_3_alg».proof.Proof.Gen.Kernel.Skeleton
import proofs.«404264_j45088566673702_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- Core c's buffers when the region is entered: the launch contents after the 31 host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- The program up to the region is the host operations: the region is entered at V. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it is not
    fetched the block index has not moved. One statement per input window. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run whose final state has every array of the pipeline at what the proof data computes and every other
    buffer as the region found it: the second weight matrix is an input window's array, so it ends at its entry
    contents; the other nine arguments bypass the region; and no host operation wrote any of the ten. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 2).trans (((dats 0 c).arrAt_in 2 rfl _).trans ((hA c 2).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

/-! ## What the body reads and writes -/

abbrev r_ei : Rect S5000x384 := Rect.unit (s := S5000x384) ![0, 0] S5000x384.size inb_S5000x384_S5000x384_0_0
abbrev r_w13 : Rect S384x128 := Rect.unit (s := S384x128) ![0, 0] S384x128.size inb_S384x128_S384x128_0_0
abbrev r_w2 : Rect S128x128 := Rect.unit (s := S128x128) ![0, 0] S128x128.size inb_S128x128_S128x128_0_0
abbrev r_row : Rect S1x128 := Rect.unit (s := S1x128) ![0, 0] S1x128.size inb_S1x128_S1x128_0_0
abbrev r_out : Rect S5000x128 := Rect.unit (s := S5000x128) ![0, 0] S5000x128.size inb_S5000x128_S5000x128_0_0

/-- The output window's staging buffer after the body, from the seven input windows' contents: its one store, whose
    value is the body's arithmetic over the whole of each input buffer. -/
def out7 (x0 : Vec F S5000x384 .f32) (x1 : Vec F S384x128 .f32) (x2 : Vec F S128x128 .f32) (x3 : Vec F S1x128 .f32) (x4 : Vec F S1x128 .f32) (x5 : Vec F S1x128 .f32) (x6 : Vec F S1x128 .f32) : Vec F S5000x128 .f32 :=
  View.canon [⟨r_out, k0_pay1 (k0_pay2 (View.ld x1 r_w13) (View.ld x2 r_w2) (View.ld x0 r_ei) (View.ld x3 r_row) (View.ld x4 r_row)) (View.ld x5 r_row) (View.ld x6 r_row)⟩]

/-- The one store covers the buffer. -/
theorem cover7 (p0 : Vec F S5000x128 .f32) (y : S5000x128.Idx) :
    ∃ pc ∈ ([⟨r_out, p0⟩] : List (View.Piece (Elt F) S5000x128 .f32)), y ∈ pc.1.set :=
  View.cover_of_tiled [⟨r_out, p0⟩] S5000x128.size (by rfl) y

/-! ## The body's triple -/

set_option maxHeartbeats 2000000 in
/-- The body on whole staging memrefs, the inputs' at contents x0 … x6 and the output's at anything, runs to a state
    holding the inputs' as they were and the output's at out7 of them. -/
theorem sound_kernel (c : Dev nD) (E : Set ℕ) (i : grid0.Coords) (arg1 : Memref sig .tc .vmem S5000x384 .f32) (harg1 : arg1.IsWhole) (arg2 : Memref sig .tc .vmem S384x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S5000x128 .f32) (harg8 : arg8.IsWhole)
    (x0 : Vec F S5000x384 .f32) (x1 : Vec F S384x128 .f32) (x2 : Vec F S128x128 .f32) (x3 : Vec F S1x128 .f32) (x4 : Vec F S1x128 .f32) (x5 : Vec F S1x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out7 x0 x1 x2 x3 x4 x5 x6)) -∗ K ⟨⟩))
      ⊢ wp frame (wpE (defs₀ (F := F)) Variants.none c none) E (cc0__edge_block_kernel i arg1 harg1 arg2 harg2 arg3 harg3 arg4 harg4 arg5 harg5 arg6 harg6 arg7 harg7 arg8 harg8) K := by
  simp only [cc0__edge_block_kernel_eq_skeleton]; unfold cc0__edge_block_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover7 _)

/-! ## The pipeline's proof data -/

/-- The proof data of the pipeline on core c: the arrays as the region finds them; after the body at point t each
    input's buffer at its block and the output's at out7 of the input blocks; nothing of the kernel's own. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_out (c : Dev nD) (t : Fin cfg0.N) : (dats m 0 c).after 7 t = out7 (iblk m c 0 t) (iblk m c 1 t) (iblk m c 2 t) (iblk m c 3 t) (iblk m c 4 t) (iblk m c 5 t) (iblk m c 6 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d
theorem before_in6 (c : Dev nD) (t : Fin cfg0.N) (d) : (dats m 0 c).before 6 t d = iblk m c 6 t :=
  before_in6_of m (dats m 0 c) (A_eq m c 6) (after_in6 m c) t d

/-! ## The body obligation -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so the body's triple applies; the invariant passes
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has each array of the pipeline at
    what the proof data computes and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its ten argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.Kernel.Region

end
-- ==== Proof.FrameIdeal.lean ====
/-
  The idealized kernel's program runs: every weakly fair execution of the host operations followed by the one
  pipelined region terminates without a fault, the argument arrays end unchanged, and the result array ends at what the
  grid points wrote back.

  The program is 31 host operations (the two row gathers, their concatenation with the edge attributes along the
  feature axis, the slices of the first weight matrix, the effective bias, four reshapes) followed by a region over a
  grid of 80 points. At point t the body reads the 5000 x 384 block t of the concatenated input and the whole of the six
  small operands, and stores one 5000 x 128 block: a single store covering the output window, whose value is the body's
  arithmetic applied to what it loaded. The input windows are only read, so each staging buffer holds its window's
  block at every point whether or not it was fetched there. Stated at any float instance.
-/
import proofs.«404264_j45088566673702_3_alg».proof.Proof.Gen.KernelIdeal.Launch
import proofs.«404264_j45088566673702_3_alg».proof.Proof.Gen.KernelIdeal.Skeleton
import proofs.«404264_j45088566673702_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- Core c's buffers when the region is entered: the launch contents after the 31 host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- The program up to the region is the host operations: the region is entered at V. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it is not
    fetched the block index has not moved. One statement per input window. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run whose final state has every array of the pipeline at what the proof data computes and every other
    buffer as the region found it: the second weight matrix is an input window's array, so it ends at its entry
    contents; the other nine arguments bypass the region; and no host operation wrote any of the ten. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 2).trans (((dats 0 c).arrAt_in 2 rfl _).trans ((hA c 2).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

/-! ## What the body reads and writes -/

abbrev r_ei : Rect S5000x384 := Rect.unit (s := S5000x384) ![0, 0] S5000x384.size inb_S5000x384_S5000x384_0_0
abbrev r_w13 : Rect S384x128 := Rect.unit (s := S384x128) ![0, 0] S384x128.size inb_S384x128_S384x128_0_0
abbrev r_w2 : Rect S128x128 := Rect.unit (s := S128x128) ![0, 0] S128x128.size inb_S128x128_S128x128_0_0
abbrev r_row : Rect S1x128 := Rect.unit (s := S1x128) ![0, 0] S1x128.size inb_S1x128_S1x128_0_0
abbrev r_out : Rect S5000x128 := Rect.unit (s := S5000x128) ![0, 0] S5000x128.size inb_S5000x128_S5000x128_0_0

/-- The output window's staging buffer after the body, from the seven input windows' contents: its one store, whose
    value is the body's arithmetic over the whole of each input buffer. -/
def out7 (x0 : Vec F S5000x384 .f32) (x1 : Vec F S384x128 .f32) (x2 : Vec F S128x128 .f32) (x3 : Vec F S1x128 .f32) (x4 : Vec F S1x128 .f32) (x5 : Vec F S1x128 .f32) (x6 : Vec F S1x128 .f32) : Vec F S5000x128 .f32 :=
  View.canon [⟨r_out, k0_pay1 (k0_pay2 (View.ld x1 r_w13) (View.ld x2 r_w2) (View.ld x0 r_ei) (View.ld x3 r_row) (View.ld x4 r_row)) (View.ld x5 r_row) (View.ld x6 r_row)⟩]

/-- The one store covers the buffer. -/
theorem cover7 (p0 : Vec F S5000x128 .f32) (y : S5000x128.Idx) :
    ∃ pc ∈ ([⟨r_out, p0⟩] : List (View.Piece (Elt F) S5000x128 .f32)), y ∈ pc.1.set :=
  View.cover_of_tiled [⟨r_out, p0⟩] S5000x128.size (by rfl) y

/-! ## The body's triple -/

set_option maxHeartbeats 2000000 in
/-- The body on whole staging memrefs, the inputs' at contents x0 … x6 and the output's at anything, runs to a state
    holding the inputs' as they were and the output's at out7 of them. -/
theorem sound_kernel (c : Dev nD) (E : Set ℕ) (i : grid0.Coords) (arg1 : Memref sig .tc .vmem S5000x384 .f32) (harg1 : arg1.IsWhole) (arg2 : Memref sig .tc .vmem S384x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S5000x128 .f32) (harg8 : arg8.IsWhole)
    (x0 : Vec F S5000x384 .f32) (x1 : Vec F S384x128 .f32) (x2 : Vec F S128x128 .f32) (x3 : Vec F S1x128 .f32) (x4 : Vec F S1x128 .f32) (x5 : Vec F S1x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out7 x0 x1 x2 x3 x4 x5 x6)) -∗ K ⟨⟩))
      ⊢ wp frame (wpE (defs₀ (F := F)) Variants.none c none) E (cc0__edge_block_kernel i arg1 harg1 arg2 harg2 arg3 harg3 arg4 harg4 arg5 harg5 arg6 harg6 arg7 harg7 arg8 harg8) K := by
  simp only [cc0__edge_block_kernel_eq_skeleton]; unfold cc0__edge_block_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover7 _)

/-! ## The pipeline's proof data -/

/-- The proof data of the pipeline on core c: the arrays as the region finds them; after the body at point t each
    input's buffer at its block and the output's at out7 of the input blocks; nothing of the kernel's own. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_out (c : Dev nD) (t : Fin cfg0.N) : (dats m 0 c).after 7 t = out7 (iblk m c 0 t) (iblk m c 1 t) (iblk m c 2 t) (iblk m c 3 t) (iblk m c 4 t) (iblk m c 5 t) (iblk m c 6 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d
theorem before_in6 (c : Dev nD) (t : Fin cfg0.N) (d) : (dats m 0 c).before 6 t d = iblk m c 6 t :=
  before_in6_of m (dats m 0 c) (A_eq m c 6) (after_in6 m c) t d

/-! ## The body obligation -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so the body's triple applies; the invariant passes
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has each array of the pipeline at
    what the proof data computes and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its ten argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.KernelIdeal.Region

end
-- ==== Proof.RowSpec.lean ====
/-
  One edge's row through the edge block, on the extended reals.

  Both programs compute, for edge e and output feature j, the same function of the row of first-layer pre-activations
  a(e, ·): the rectifier max(a, 0), the second linear layer h · W2 + b2, and a layer normalisation over the 128 features
  (mean and variance as sums divided by 128, the variance shifted by epsilon before the reciprocal square root, then
  scale and shift). They differ only in how a(e, ·) is summed: one contraction over all 512 input features against W1,
  or a contraction over the first 384 plus the last 128 features' contribution folded into the bias. Addition of
  extended reals is commutative and associative, so the two groupings agree with no finiteness assumption.
-/
import Idealize.ShloMosaic.PureOps.Ideal
import Mathlib.Algebra.BigOperators.Fin

noncomputable section

open scoped BigOperators

namespace Cert.EdgeRow

open Idealize.ShloMosaic

/-- The three float words both programs print: zero, 128 and the layer norm's epsilon. -/
abbrev zero : EReal := Ideal.ofBits .f32 0x00000000#32
abbrev c128 : EReal := Ideal.ofBits .f32 0x43000000#32
abbrev eps : EReal := Ideal.ofBits .f32 0x3727C5AC#32

/-- The rectified row. -/
def hidden (a : Fin 128 → EReal) (k : Fin 128) : EReal := max (a k) zero

/-- The second linear layer of a row. -/
def second (W2 : Fin 128 → Fin 128 → EReal) (b2 : Fin 128 → EReal) (h : Fin 128 → EReal) (j : Fin 128) : EReal :=
  (∑ k : Fin 128, h k * W2 k j) + b2 j

/-- A row's mean: its sum divided by 128. -/
def mean (o : Fin 128 → EReal) : EReal := Ideal.div (∑ j : Fin 128, o j) c128

/-- Layer normalisation of a row: centred, scaled by the reciprocal square root of the shifted variance, then by gamma,
    then shifted by beta. -/
def normed (γ β : Fin 128 → EReal) (o : Fin 128 → EReal) (j : Fin 128) : EReal :=
  (o j - mean o) * Ideal.rsqrt (mean (fun j' => (o j' - mean o) * (o j' - mean o)) + eps) * γ j + β j

/-- Everything after the first layer's pre-activations, for one row. -/
def tail (W2 : Fin 128 → Fin 128 → EReal) (b2 γ β : Fin 128 → EReal) (a : Fin 128 → EReal) (j : Fin 128) : EReal :=
  normed γ β (second W2 b2 (hidden a)) j

/-- A sum over 512 terms plus b is the sum over the first 384 plus (b plus the sum over the last 128): only the
    commutative monoid laws of addition. -/
theorem sum_split_add (u : Fin 512 → EReal) (v : Fin 384 → EReal) (w : Fin 128 → EReal) (b : EReal)
    (hv : ∀ k : Fin 384, u ⟨k.val, by have := k.isLt; omega⟩ = v k)
    (hw : ∀ k : Fin 128, u ⟨384 + k.val, by have := k.isLt; omega⟩ = w k) :
    (∑ k : Fin 512, u k) + b = (∑ k : Fin 384, v k) + (b + ∑ k : Fin 128, w k) := by
  have h := Fin.sum_univ_add (a := 384) (b := 128) (fun i : Fin (384 + 128) => u i)
  have e1 : (∑ i : Fin 384, u (Fin.castAdd 128 i)) = ∑ k : Fin 384, v k :=
    Finset.sum_congr rfl fun k _ => hv k
  have e2 : (∑ i : Fin 128, u (Fin.natAdd 384 i)) = ∑ k : Fin 128, w k :=
    Finset.sum_congr rfl fun k _ => hw k
  rw [show (∑ k : Fin 512, u k) = (∑ k : Fin 384, v k) + ∑ k : Fin 128, w k from by rw [← e1, ← e2]; exact h]
  rw [add_assoc, add_comm (∑ k : Fin 128, w k) b]

end Cert.EdgeRow

end
-- ==== Proof.LibPlainDot.lean ====
/- The plain product of an M×K matrix by a K×N matrix, read at an index of the result, at the ideal (extended-real)
   values: entry (r, c) is the sum over the contracted coordinate k of x[r, k] * w[k, c]. Stated for the reference's
   product with no accumulator and for the kernel's product accumulated into a zero array, which is the same sum
   because 0 + s = s. -/
import Idealize.ShloMosaic.Lib.StackMember

noncomputable section

open scoped BigOperators

namespace Cert.LibPlainDot

open Idealize.ShloMosaic

/-- The reference's plain product at an index: the sum over the contracted coordinate. -/
theorem dotGeneral_plain_apply (M K N : Nat) {φ₁ φ₂ : FTy} (prec : Option ContractPrecision)
    (x : FVec Ideal ⟨2, ![M, K]⟩ φ₁) (w : FVec Ideal ⟨2, ![K, N]⟩ φ₂) (j : (⟨2, ![M, N]⟩ : Shape).Idx) :
    Host.dotGeneral (DotDims.plain M K N) prec x w j = ∑ k : Fin K, x (ValueIdx.ix2 (j 0) k) * w (ValueIdx.ix2 k (j 1)) := by
  have e := StackMember.dotGeneral_plain_apply (m := M) (n := N) (k := K) prec x w (j 0) (j 1)
  exact (congrArg (Host.dotGeneral (DotDims.plain M K N) prec x w) (ValueIdx.eq_ix2 j)).trans e

/-- The kernel's product into a zero accumulator at an index: the same sum. -/
theorem matmul_zero_plain_apply {M K N : Nat} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (j : (⟨2, ![M, N]⟩ : Shape).Idx) :
    matmul d prec x w (constant ⟨2, ![M, N]⟩ .f32 0x00000000#32) j
      = ∑ k : Fin K, x (ValueIdx.ix2 (j 0) k) * w (ValueIdx.ix2 k (j 1)) := by
  subst hd
  rw [matmul_zero_eq_dotGeneral]
  exact dotGeneral_plain_apply M K N prec x w j

end Cert.LibPlainDot

end
-- ==== Proof.LibColumn.lean ====
/-
  GENERAL LEMMAS: a column of row values read at an index.

  A reduction along the rows of an [a, b] array that keeps the reduced axis leaves an [a] vector cast to the column [a, 1],
  which is then broadcast back along the rows to [a, b]. Both steps only rename the index: the column at (i, 0) is the
  vector at i, and the broadcast at (p, c) is the column at (p, 0).
-/
import Idealize.ShloMosaic.Lib.ValueLayout

namespace Cert.Column

open Idealize.ShloMosaic Idealize.ShloMosaic.ValueIdx

/-- An [a] vector cast to the column [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along the rows to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column
-- ==== Proof.KerRow.lean ====
/-
  The kernel body's stored value at row r and feature j of a block: the row function of RowSpec applied to the row of
  first-layer pre-activations, the contraction over the block's 384 input features against the 384 weight rows plus
  the effective bias row.
-/
import proofs.«404264_j45088566673702_3_alg».proof.Proof.Gen.KernelIdeal.Skeleton
import proofs.«404264_j45088566673702_3_alg».proof.Proof.RowSpec
import proofs.«404264_j45088566673702_3_alg».proof.Proof.LibPlainDot
import proofs.«404264_j45088566673702_3_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.EdgeRow.Ker

open Idealize.ShloMosaic Idealize.ShloMosaic.ValueIdx Cert.KernelIdeal Cert.KernelIdeal.Gen

/-- A [1,128] row, cast to its own shape and broadcast along the 5000 rows, reads at (r, j) the row at (0, j). -/
private theorem row_at {α : Type} (v : S1x128.Idx → α) (h1 : S1x128.ShapeCasts S1x128) (h2 : S1x128.Broadcasts S5000x128)
    (r : Fin 5000) (j : Fin 128) :
    broadcastTo S5000x128 (shapeCast S1x128 v h1) h2 (ix2 r j) = v (ix2 (0 : Fin 1) j) := by
  rw [shapeCast_self]
  refine broadcastTo_apply v _ (ix2 r j) (ix2 (0 : Fin 1) j) fun ax => ?_
  match ax with
  | ⟨0, _⟩ => rfl
  | ⟨1, _⟩ => rfl

/-- The sum along the 128 lanes of a [5000,128] array, read at row r, is the sum over the row's entries. -/
private theorem rowsum_at (x : FVec Ideal S5000x128 .f32) (h : S5000x128.Reduces [1] S5000) (hφ : FKind.Formats .f32)
    (hacc : (0x00000000#32 : BitVec 32) = 0x00000000#32) (r : Fin 5000) :
    multiReduction (F := Ideal) .add [1] S5000 x 0x00000000#32 h hφ hacc (ix1 r) = ∑ k : Fin 128, x (ix2 r k) := by
  refine (Ideal.multiReduction_add_single x 0x00000000#32 h hφ hacc (ix1 r)).trans ?_
  refine Finset.sum_congr rfl fun k _ => congrArg x ?_
  funext a
  match a with
  | ⟨0, _⟩ => rfl
  | ⟨1, _⟩ => rfl

/-- The first layer's pre-activation at (r, j): the contraction of row r of the block against column j of the weights,
    plus the bias row; the narrowing of the operands is the identity on the extended reals. -/
private theorem pre_at (w13 : Vec Ideal S384x128 .f32) (ei : Vec Ideal S5000x384 .f32) (b1 : Vec Ideal S1x128 .f32)
    (d : DotDims S5000x384 S384x128 S5000x128) (hd : d = DotDims.plain 5000 384 128)
    (hw : S384x128.ShapeCasts S384x128) (he : S5000x384.ShapeCasts S5000x384) (hb : FTy.bits .bf16 < FTy.bits .f32)
    (h1 : S1x128.ShapeCasts S1x128) (h2 : S1x128.Broadcasts S5000x128) (r : Fin 5000) (j : Fin 128) :
    addf (matmul d none (truncf .bf16 (shapeCast S5000x384 ei he) hb) (truncf .bf16 (shapeCast S384x128 w13 hw) hb)
          (constant (F := Ideal) S5000x128 .f32 0x00000000#32))
        (broadcastTo S5000x128 (shapeCast S1x128 b1 h1) h2) (ix2 r j)
      = (∑ k : Fin 384, ei (ix2 r k) * w13 (ix2 k j)) + b1 (ix2 (0 : Fin 1) j) := by
  rw [addf_apply, row_at, shapeCast_self, shapeCast_self]
  refine congrArg (· + b1 (ix2 (0 : Fin 1) j)) ?_
  exact Cert.LibPlainDot.matmul_zero_plain_apply d hd none _ _ (ix2 r j)

/-- The second layer at (r, j) over the array p of pre-activations: the rectified row r of p against column j of the
    second weights, plus the second bias row. -/
private theorem second_at (p : FVec Ideal S5000x128 .f32) (w2 : Vec Ideal S128x128 .f32) (b2 : Vec Ideal S1x128 .f32)
    (d : DotDims S5000x128 S128x128 S5000x128) (hd : d = DotDims.plain 5000 128 128)
    (hb : FTy.bits .bf16 < FTy.bits .f32)
    (h1 : S1x128.ShapeCasts S1x128) (h2 : S1x128.Broadcasts S5000x128) (r : Fin 5000) (j : Fin 128) :
    addf (matmul d none
            (truncf .bf16 (maximumf p (broadcast S5000x128 (Scalar.ofBits (F := Ideal) .f32 0x00000000#32))) hb)
            (truncf .bf16 w2 hb) (constant (F := Ideal) S5000x128 .f32 0x00000000#32))
        (broadcastTo S5000x128 (shapeCast S1x128 b2 h1) h2) (ix2 r j)
      = second (fun k j' => w2 (ix2 k j')) (fun j' => b2 (ix2 (0 : Fin 1) j')) (hidden fun k => p (ix2 r k)) j := by
  rw [addf_apply, row_at]
  unfold second hidden
  refine congrArg (· + b2 (ix2 (0 : Fin 1) j)) ?_
  exact Cert.LibPlainDot.matmul_zero_plain_apply d hd none _ _ (ix2 r j)

section Norm

variable (o : FVec Ideal S5000x128 .f32) (hr : S5000x128.Reduces [1] S5000) (hφ : FKind.Formats .f32)
  (hacc : (0x00000000#32 : BitVec 32) = 0x00000000#32) (hc : S5000.ShapeCasts S5000x1) (hb : S5000x1.Broadcasts S5000x128)

/-- The column of row means: the lane sums as a column, divided by 128. -/
private abbrev meanCol : FVec Ideal S5000x1 .f32 :=
  divf (shapeCast S5000x1 (multiReduction (F := Ideal) .add [1] S5000 o 0x00000000#32 hr hφ hacc) hc)
    (broadcast S5000x1 (Scalar.ofBits (F := Ideal) .f32 0x43000000#32))

/-- The array minus its row means. -/
private abbrev centred : FVec Ideal S5000x128 .f32 :=
  subf o (broadcastTo S5000x128 (meanCol o hr hφ hacc hc) hb)

/-- The column of row variances: the lane sums of the squared centred array as a column, divided by 128. -/
private abbrev varCol : FVec Ideal S5000x1 .f32 :=
  divf (shapeCast S5000x1 (multiReduction (F := Ideal) .add [1] S5000
      (mulf (centred o hr hφ hacc hc hb) (centred o hr hφ hacc hc hb)) 0x00000000#32 hr hφ hacc) hc)
    (broadcast S5000x1 (Scalar.ofBits (F := Ideal) .f32 0x43000000#32))

/-- The column of means at row r is the mean of row r. -/
private theorem meanCol_at (r : Fin 5000) (u : Fin 1) :
    meanCol o hr hφ hacc hc (ix2 r u) = mean fun k => o (ix2 r k) := by
  show Ideal.div (shapeCast S5000x1 (multiReduction (F := Ideal) .add [1] S5000 o 0x00000000#32 hr hφ hacc) hc (ix2 r u))
      (Ideal.ofBits .f32 0x43000000#32) = _
  rw [Cert.Column.shapeCast_a_a1_apply, rowsum_at]
  rfl

/-- The centred array at (r, k) is the entry minus the mean of row r. -/
private theorem centred_at (r : Fin 5000) (k : Fin 128) :
    centred o hr hφ hacc hc hb (ix2 r k) = o (ix2 r k) - mean fun k' => o (ix2 r k') := by
  show o (ix2 r k) - broadcastTo S5000x128 (meanCol o hr hφ hacc hc) hb (ix2 r k) = _
  rw [Cert.Column.broadcastTo_a1_ab_apply, meanCol_at]

/-- The column of variances at row r is the mean of the squared centred row r. -/
private theorem varCol_at (r : Fin 5000) (u : Fin 1) :
    varCol o hr hφ hacc hc hb (ix2 r u)
      = mean fun k => (o (ix2 r k) - mean fun k' => o (ix2 r k')) * (o (ix2 r k) - mean fun k' => o (ix2 r k')) := by
  show Ideal.div (shapeCast S5000x1 (multiReduction (F := Ideal) .add [1] S5000
      (mulf (centred o hr hφ hacc hc hb) (centred o hr hφ hacc hc hb)) 0x00000000#32 hr hφ hacc) hc (ix2 r u))
      (Ideal.ofBits .f32 0x43000000#32) = _
  rw [Cert.Column.shapeCast_a_a1_apply, rowsum_at]
  refine congrArg (fun s => Ideal.div s c128) (Finset.sum_congr rfl fun k _ => ?_)
  show centred o hr hφ hacc hc hb (ix2 r k) * centred o hr hφ hacc hc hb (ix2 r k) = _
  rw [centred_at]

/-- The normalised, scaled and shifted array at (r, j) is the layer normalisation of row r at j. -/
private theorem normed_at (g bt : Vec Ideal S1x128 .f32) (h1 : S1x128.ShapeCasts S1x128) (h2 : S1x128.Broadcasts S5000x128)
    (r : Fin 5000) (j : Fin 128) :
    addf (mulf (mulf (centred o hr hφ hacc hc hb)
            (broadcastTo S5000x128 (rsqrt (addf (varCol o hr hφ hacc hc hb)
              (broadcast S5000x1 (Scalar.ofBits (F := Ideal) .f32 0x3727C5AC#32)))) hb))
          (broadcastTo S5000x128 (shapeCast S1x128 g h1) h2))
        (broadcastTo S5000x128 (shapeCast S1x128 bt h1) h2) (ix2 r j)
      = normed (fun j' => g (ix2 (0 : Fin 1) j')) (fun j' => bt (ix2 (0 : Fin 1) j')) (fun k => o (ix2 r k)) j := by
  rw [addf_apply, mulf_apply, mulf_apply, row_at, row_at, Cert.Column.broadcastTo_a1_ab_apply, centred_at]
  show _ * Ideal.rsqrt (varCol o hr hφ hacc hc hb (ix2 r (0 : Fin 1)) + Ideal.ofBits .f32 0x3727C5AC#32) * _ + _ = _
  rw [varCol_at]
  rfl

end Norm

/-- The body's stored value read at (r, j). -/
theorem pay_at (w13 : Vec Ideal S384x128 .f32) (w2 : Vec Ideal S128x128 .f32) (ei : Vec Ideal S5000x384 .f32)
    (b1 b2 g bt : Vec Ideal S1x128 .f32) (r : Fin 5000) (j : Fin 128) :
    k0_pay1 (F := Ideal) (k0_pay2 (F := Ideal) w13 w2 ei b1 b2) g bt (ix2 r j)
      = Cert.EdgeRow.tail (fun k j' => w2 (ix2 k j')) (fun j' => b2 (ix2 (0 : Fin 1) j')) (fun j' => g (ix2 (0 : Fin 1) j'))
          (fun j' => bt (ix2 (0 : Fin 1) j'))
          (fun j' => (∑ k : Fin 384, ei (ix2 r k) * w13 (ix2 k j')) + b1 (ix2 (0 : Fin 1) j')) j := by
  unfold k0_pay1 k0_pay2
  -- the last stage: the layer normalisation of row r of the second layer's array
  refine (normed_at _ _ _ _ _ _ g bt _ _ r j).trans ?_
  unfold tail
  refine congrArg (fun o => normed _ _ o j) (funext fun k => ?_)
  -- the second layer over the array of pre-activations
  refine (second_at _ w2 b2 _ rfl _ _ _ r k).trans ?_
  refine congrArg (fun a => second _ _ (hidden a) k) (funext fun k' => ?_)
  -- the first layer
  exact pre_at w13 ei b1 _ rfl _ _ _ _ _ r k'

end Cert.EdgeRow.Ker

end
-- ==== Proof.LibNary3.lean ====
/-
  GENERAL LEMMA: a host operation over a literal family of THREE operand references (a concatenate of three arrays).

  Its result buffer holds the operation's function applied to the three operands' contents, each read at its own
  reference, so that a valuation computed by earlier operations can be rewritten operand by operand. The library states
  this for a family of four references; this is the same statement for three.
-/
import Idealize.ShloMosaic.Lib.StableHlo.Run

namespace Cert.LibNary3

open Idealize.ShloMosaic Idealize.ShloMosaic.StableHlo Idealize.SL.Sem

variable {τ : Topo} {sig : RefSig} {Val : EltTy → Type}
variable {x a b y : Ref sig .tc}

/-- The result of an operation over the literal family `![x, a, b]`, each operand's contents at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, with the result reference un-indexed so that a simplifier pass can use it. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.LibNary3
-- ==== Proof.ValueIdeal.lean ====
/-
  What the idealized kernel's result array holds after the run, as one function of the argument arrays.

  The host operations before the region build the region's seven input arrays: the concatenation, along the feature
  axis, of the node features gathered at the target indices, the node features gathered at the source indices and the
  edge attributes (400000 x 384); the first 384 rows of the first weight matrix; the second weight matrix itself; the
  effective bias row b1 + global attributes . (last 128 rows of the first weight matrix); and b2, gamma, beta as rows.
  Point t of the grid reads rows 5000 t … 5000 t + 4999 of the concatenation and the whole of the six small arrays, and
  writes back rows 5000 t … 5000 t + 4999 of the result. Each stored entry depends only on its own row, so what point t
  writes is block t of ONE whole-array function (EdgeOut below), and the 80 blocks tile the result array.
-/
import proofs.«404264_j45088566673702_3_alg».proof.Proof.FrameIdeal
import proofs.«404264_j45088566673702_3_alg».proof.Proof.KerRow
import proofs.«404264_j45088566673702_3_alg».proof.Proof.LibNary3
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

open scoped BigOperators

namespace Cert.KernelIdeal.RegionValue

open Cert.KernelIdeal Cert.KernelIdeal.Gen Cert.KernelIdeal.Region
open Idealize.ShloMosaic Idealize.ShloMosaic.TcCoe Idealize.SL.Sem Idealize.ShloMosaic.ValueIdx
open Idealize.ShloMosaic.StableHlo
open Idealize.ShloMosaic.Pipeline (Dat)

/-- After an operation, its result buffer holds its function of its operands' contents and every other buffer what it
    held before; applied to the 31 operations in order, the three-operand concatenation read at its own operands. -/
macro "host_results" : tactic =>
  `(tactic| (simp (disch := decide) only [after_cons, after_nil,
      nullary_result', unary_result', binary_result', ternary_result', reshape_result', Cert.LibNary3.nary3_result',
      nullary_result_ne', unary_result_ne', binary_result_ne', ternary_result_ne', reshape_result_ne', nary_result_ne']))

variable (m : (ℓ : Loc nD τ sig) → Buf (Elt Ideal) ℓ) (ρ : Dev nD → PrngReg)

/-! ## The region's input arrays as functions of the arguments -/

/-- The rows of the node features at a vector of node indices, a negative index counted from the end. -/
def rowsAt (x : FVec Ideal S25000x128 .f32) (t : IVec S400000 32) : FVec Ideal S400000x128 .f32 :=
  Host.gather gather_S25000x128_S400000x1_S400000x128_1_0_n_n_0_1_1128 x
    (broadcastInDim S400000x1 ![0] bcast_S400000_S400000x1_0
      (select (cmpi .slt t (broadcastInDim S400000 ![] bcast_S_S400000 (constantI S_ 32 0#32)))
        (addi t (broadcastInDim S400000 ![] bcast_S_S400000 (constantI S_ 32 25000#32))) t))

/-- Row r of the edge index array as a vector. -/
def indexRow (r : Nat) (hs : S2x400000.Slices ![r, 0] S1x400000) (x : IVec S2x400000 32) : IVec S400000 32 :=
  shapeCast S400000 (extractStridedSlice S1x400000 ![r, 0] x hs) shapeCasts_S1x400000_S400000

/-- The concatenated input: target rows, source rows, edge attributes. -/
def catIn (x0 : FVec Ideal S25000x128 .f32) (x1 : IVec S2x400000 32) (x2 : FVec Ideal S400000x128 .f32) : FVec Ideal S400000x384 .f32 :=
  concatenate S400000x384 1 [⟨S400000x128, rowsAt x0 (indexRow 1 slices_S2x400000_S1x400000_1_0 x1)⟩,
    ⟨S400000x128, rowsAt x0 (indexRow 0 slices_S2x400000_S1x400000_0_0 x1)⟩, ⟨S400000x128, x2⟩]
    concatenates_S400000x128_S400000x128_S400000x128_S400000x384_d1

/-- The first 384 rows of the first weight matrix. -/
def w13 (x4 : FVec Ideal S512x128 .f32) : FVec Ideal S384x128 .f32 :=
  extractStridedSlice S384x128 ![0, 0] x4 slices_S512x128_S384x128_0_0

/-- The effective bias row. -/
def biasRow (x3 : FVec Ideal S1x128 .f32) (x4 : FVec Ideal S512x128 .f32) (x5 : FVec Ideal S128 .f32) : FVec Ideal S1x128 .f32 :=
  addf (shapeCast S1x128 x5 shapeCasts_S128_S1x128)
    (Host.dotGeneral dot_S1x128_S128x128_S1x128_1_0_0_1_n_n none x3
      (extractStridedSlice S128x128 ![384, 0] x4 slices_S512x128_S128x128_384_0))

/-- A feature vector as a row. -/
def asRow (x : FVec Ideal S128 .f32) : FVec Ideal S1x128 .f32 := shapeCast S1x128 x shapeCasts_S128_S1x128

abbrev a0 (c : Dev nD) : FVec Ideal S25000x128 .f32 := m ((c : Thread nD τ).loc main_arg0)
abbrev a1 (c : Dev nD) : IVec S2x400000 32 := m ((c : Thread nD τ).loc main_arg1)
abbrev a2 (c : Dev nD) : FVec Ideal S400000x128 .f32 := m ((c : Thread nD τ).loc main_arg2)
abbrev a3 (c : Dev nD) : FVec Ideal S1x128 .f32 := m ((c : Thread nD τ).loc main_arg3)
abbrev a4 (c : Dev nD) : FVec Ideal S512x128 .f32 := m ((c : Thread nD τ).loc main_arg4)
abbrev a5 (c : Dev nD) : FVec Ideal S128 .f32 := m ((c : Thread nD τ).loc main_arg5)
abbrev a6 (c : Dev nD) : FVec Ideal S128x128 .f32 := m ((c : Thread nD τ).loc main_arg6)
abbrev a7 (c : Dev nD) : FVec Ideal S128 .f32 := m ((c : Thread nD τ).loc main_arg7)
abbrev a8 (c : Dev nD) : FVec Ideal S128 .f32 := m ((c : Thread nD τ).loc main_arg8)
abbrev a9 (c : Dev nD) : FVec Ideal S128 .f32 := m ((c : Thread nD τ).loc main_arg9)

/-- The region's input arrays as the region finds them, each named at its literal type. -/
abbrev A0 (c : Dev nD) : FVec Ideal S400000x384 .f32 := V m c main_v18
abbrev A1 (c : Dev nD) : FVec Ideal S384x128 .f32 := V m c main_v19
abbrev A2 (c : Dev nD) : FVec Ideal S128x128 .f32 := V m c main_arg6
abbrev A3 (c : Dev nD) : FVec Ideal S1x128 .f32 := V m c main_v23
abbrev A4 (c : Dev nD) : FVec Ideal S1x128 .f32 := V m c main_v24
abbrev A5 (c : Dev nD) : FVec Ideal S1x128 .f32 := V m c main_v25
abbrev A6 (c : Dev nD) : FVec Ideal S1x128 .f32 := V m c main_v26

set_option maxHeartbeats 4000000 in
theorem V_cat (c : Dev nD) : A0 m c = catIn (a0 m c) (a1 m c) (a2 m c) := by
  dsimp only [A0, V, hostOps0]; host_results; rfl
set_option maxHeartbeats 4000000 in
theorem V_w13 (c : Dev nD) : A1 m c = w13 (a4 m c) := by
  dsimp only [A1, V, hostOps0]; host_results; rfl
theorem V_w2 (c : Dev nD) : A2 m c = a6 m c := V_main_arg6 m c
set_option maxHeartbeats 4000000 in
theorem V_bias (c : Dev nD) : A3 m c = biasRow (a3 m c) (a4 m c) (a5 m c) := by
  dsimp only [A3, V, hostOps0]; host_results; rfl
set_option maxHeartbeats 4000000 in
theorem V_b2 (c : Dev nD) : A4 m c = asRow (a7 m c) := by
  dsimp only [A4, V, hostOps0]; host_results; rfl
set_option maxHeartbeats 4000000 in
theorem V_gamma (c : Dev nD) : A5 m c = asRow (a8 m c) := by
  dsimp only [A5, V, hostOps0]; host_results; rfl
set_option maxHeartbeats 4000000 in
theorem V_beta (c : Dev nD) : A6 m c = asRow (a9 m c) := by
  dsimp only [A6, V, hostOps0]; host_results; rfl

/-- The seven input windows' blocks at point t, each named at its literal type. -/
abbrev B0 (c : Dev nD) (t : Fin cfg0.N) : Vec Ideal S5000x384 .f32 := iblk m c 0 t
abbrev B1 (c : Dev nD) (t : Fin cfg0.N) : Vec Ideal S384x128 .f32 := iblk m c 1 t
abbrev B2 (c : Dev nD) (t : Fin cfg0.N) : Vec Ideal S128x128 .f32 := iblk m c 2 t
abbrev B3 (c : Dev nD) (t : Fin cfg0.N) : Vec Ideal S1x128 .f32 := iblk m c 3 t
abbrev B4 (c : Dev nD) (t : Fin cfg0.N) : Vec Ideal S1x128 .f32 := iblk m c 4 t
abbrev B5 (c : Dev nD) (t : Fin cfg0.N) : Vec Ideal S1x128 .f32 := iblk m c 5 t
abbrev B6 (c : Dev nD) (t : Fin cfg0.N) : Vec Ideal S1x128 .f32 := iblk m c 6 t

/-- A feature vector as a row, read at (0, j). -/
theorem asRow_apply (x : FVec Ideal S128 .f32) (j : Fin 128) : asRow x (ix2 (0 : Fin 1) j) = x (ix1 j) :=
  shapeCast_apply x shapeCasts_S128_S1x128 _ _ (by
    rw [Shape.rowMajor_val_two, Shape.rowMajor_val_one]
    show j.val = 0 * 128 + j.val
    omega)

/-! ## The whole-array function -/

/-- The result array: at edge e and feature j, the row function of the first layer's pre-activations of edge e. -/
def EdgeOut (x0 : FVec Ideal S25000x128 .f32) (x1 : IVec S2x400000 32) (x2 : FVec Ideal S400000x128 .f32)
    (x3 : FVec Ideal S1x128 .f32) (x4 : FVec Ideal S512x128 .f32) (x5 : FVec Ideal S128 .f32) (x6 : FVec Ideal S128x128 .f32)
    (x7 x8 x9 : FVec Ideal S128 .f32) : FVec Ideal S400000x128 .f32 := fun i =>
  Cert.EdgeRow.tail (fun k j' => x6 (ix2 k j')) (fun j' => x7 (ix1 j')) (fun j' => x8 (ix1 j')) (fun j' => x9 (ix1 j'))
    (fun j' => (∑ k : Fin 384, catIn x0 x1 x2 (ix2 (⟨(i 0).val, (i 0).isLt⟩ : Fin 400000) k) * w13 x4 (ix2 k j'))
      + biasRow x3 x4 x5 (ix2 (0 : Fin 1) j')) (⟨(i 1).val, (i 1).isLt⟩ : Fin 128)

/-! ## What a point writes back -/

theorem hz : (![0, 0] : Fin 2 → Nat) = fun _ => 0 := funext fun a => by fin_cases a <;> rfl

/-- The printed index maps, decided over the 80 points: the big input and the output move together along the rows,
    one block per point; every other window stays at block (0, 0). -/
theorem idx_facts : ∀ t : Fin cfg0.N,
    win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Every block row of the result is some point's. -/
theorem idx_onto : ∀ q : Fin 80, ∃ t : Fin cfg0.N, win0_7.index t = ![q.val, 0] :=
  (by decide +kernel : ∀ q : Fin 80, ∃ t : Fin grid0.N, win0_7.index t = ![q.val, 0])

/-- The big input's block at point t, read at (r, k): row 5000 t + r of the concatenation. -/
theorem blk_in (c : Dev nD) (t : Fin cfg0.N) (r : Fin 5000) (k : Fin 384) (e : Fin 400000) (he : e.val = t.val * 5000 + r.val) :
    B0 m c t (ix2 r k) = catIn (a0 m c) (a1 m c) (a2 m c) (ix2 e k) := by
  obtain ⟨f0, f1, -⟩ := idx_facts t
  show A0 m c (((cfg0.win 0).blk t).view.emb (ix2 r k)) = _
  rw [V_cat]
  refine congrArg _ (funext fun a => Fin.ext ?_)
  match a with
  | ⟨0, _⟩ => show win0_0.index t (0 : Fin 2) * 5000 + 1 * r.val = e.val; omega
  | ⟨1, _⟩ => show win0_0.index t (1 : Fin 2) * 384 + 1 * k.val = k.val; omega

/-- Window 1's block is its whole array at every point. -/
theorem blk_whole1 (c : Dev nD) (t : Fin cfg0.N) (p : Fin 384) (q : Fin 128) :
    B1 m c t (ix2 p q) = A1 m c (ix2 p q) := by
  obtain ⟨f0, f1, f2, f3, f4, f5, f6, f7, f8, f9, f10, f11, f12, f13, f14, f15⟩ := idx_facts t
  show A1 m c (((cfg0.win 1).blk t).view.emb (ix2 p q)) = _
  refine congrArg _ (funext fun a => Fin.ext ?_)
  match a with
  | ⟨0, _⟩ => show win0_1.index t (0 : Fin 2) * 384 + 1 * p.val = p.val; omega
  | ⟨1, _⟩ => show win0_1.index t (1 : Fin 2) * 128 + 1 * q.val = q.val; omega
/-- Window 2's block is its whole array at every point. -/
theorem blk_whole2 (c : Dev nD) (t : Fin cfg0.N) (p : Fin 128) (q : Fin 128) :
    B2 m c t (ix2 p q) = A2 m c (ix2 p q) := by
  obtain ⟨f0, f1, f2, f3, f4, f5, f6, f7, f8, f9, f10, f11, f12, f13, f14, f15⟩ := idx_facts t
  show A2 m c (((cfg0.win 2).blk t).view.emb (ix2 p q)) = _
  refine congrArg _ (funext fun a => Fin.ext ?_)
  match a with
  | ⟨0, _⟩ => show win0_2.index t (0 : Fin 2) * 128 + 1 * p.val = p.val; omega
  | ⟨1, _⟩ => show win0_2.index t (1 : Fin 2) * 128 + 1 * q.val = q.val; omega
/-- Window 3's block is its whole array at every point. -/
theorem blk_whole3 (c : Dev nD) (t : Fin cfg0.N) (p : Fin 1) (q : Fin 128) :
    B3 m c t (ix2 p q) = A3 m c (ix2 p q) := by
  obtain ⟨f0, f1, f2, f3, f4, f5, f6, f7, f8, f9, f10, f11, f12, f13, f14, f15⟩ := idx_facts t
  show A3 m c (((cfg0.win 3).blk t).view.emb (ix2 p q)) = _
  refine congrArg _ (funext fun a => Fin.ext ?_)
  match a with
  | ⟨0, _⟩ => show win0_3.index t (0 : Fin 2) * 1 + 1 * p.val = p.val; omega
  | ⟨1, _⟩ => show win0_3.index t (1 : Fin 2) * 128 + 1 * q.val = q.val; omega
/-- Window 4's block is its whole array at every point. -/
theorem blk_whole4 (c : Dev nD) (t : Fin cfg0.N) (p : Fin 1) (q : Fin 128) :
    B4 m c t (ix2 p q) = A4 m c (ix2 p q) := by
  obtain ⟨f0, f1, f2, f3, f4, f5, f6, f7, f8, f9, f10, f11, f12, f13, f14, f15⟩ := idx_facts t
  show A4 m c (((cfg0.win 4).blk t).view.emb (ix2 p q)) = _
  refine congrArg _ (funext fun a => Fin.ext ?_)
  match a with
  | ⟨0, _⟩ => show win0_4.index t (0 : Fin 2) * 1 + 1 * p.val = p.val; omega
  | ⟨1, _⟩ => show win0_4.index t (1 : Fin 2) * 128 + 1 * q.val = q.val; omega
/-- Window 5's block is its whole array at every point. -/
theorem blk_whole5 (c : Dev nD) (t : Fin cfg0.N) (p : Fin 1) (q : Fin 128) :
    B5 m c t (ix2 p q) = A5 m c (ix2 p q) := by
  obtain ⟨f0, f1, f2, f3, f4, f5, f6, f7, f8, f9, f10, f11, f12, f13, f14, f15⟩ := idx_facts t
  show A5 m c (((cfg0.win 5).blk t).view.emb (ix2 p q)) = _
  refine congrArg _ (funext fun a => Fin.ext ?_)
  match a with
  | ⟨0, _⟩ => show win0_5.index t (0 : Fin 2) * 1 + 1 * p.val = p.val; omega
  | ⟨1, _⟩ => show win0_5.index t (1 : Fin 2) * 128 + 1 * q.val = q.val; omega
/-- Window 6's block is its whole array at every point. -/
theorem blk_whole6 (c : Dev nD) (t : Fin cfg0.N) (p : Fin 1) (q : Fin 128) :
    B6 m c t (ix2 p q) = A6 m c (ix2 p q) := by
  obtain ⟨f0, f1, f2, f3, f4, f5, f6, f7, f8, f9, f10, f11, f12, f13, f14, f15⟩ := idx_facts t
  show A6 m c (((cfg0.win 6).blk t).view.emb (ix2 p q)) = _
  refine congrArg _ (funext fun a => Fin.ext ?_)
  match a with
  | ⟨0, _⟩ => show win0_6.index t (0 : Fin 2) * 1 + 1 * p.val = p.val; omega
  | ⟨1, _⟩ => show win0_6.index t (1 : Fin 2) * 128 + 1 * q.val = q.val; omega

/-- The body's stored value at point t, read at (r, j), is the whole-array function at row 5000 t + r. -/
theorem point_value (c : Dev nD) (t : Fin cfg0.N) (r : Fin 5000) (j : Fin 128) (i : S400000x128.Idx)
    (hi0 : (i 0).val = t.val * 5000 + r.val) (hi1 : (i 1).val = j.val) :
    k0_pay1 (F := Ideal) (k0_pay2 (F := Ideal) (B1 m c t) (B2 m c t) (B0 m c t) (B3 m c t) (B4 m c t)) (B5 m c t) (B6 m c t) (ix2 r j)
      = EdgeOut (a0 m c) (a1 m c) (a2 m c) (a3 m c) (a4 m c) (a5 m c) (a6 m c) (a7 m c) (a8 m c) (a9 m c) i := by
  refine (Cert.EdgeRow.Ker.pay_at (B1 m c t) (B2 m c t) (B0 m c t) (B3 m c t) (B4 m c t) (B5 m c t) (B6 m c t) r j).trans ?_
  unfold EdgeOut
  have hj : (⟨(i 1).val, (i 1).isLt⟩ : Fin 128) = j := Fin.ext hi1
  rw [hj]
  have e2 : (fun (k : Fin 128) (j' : Fin 128) => B2 m c t (ix2 k j')) = fun k j' => a6 m c (ix2 k j') :=
    funext fun k => funext fun j' => (blk_whole2 m c t k j').trans (congrFun (V_w2 m c) _)
  have e4 : (fun (j' : Fin 128) => B4 m c t (ix2 (0 : Fin 1) j')) = fun j' => a7 m c (ix1 j') :=
    funext fun j' => (blk_whole4 m c t 0 j').trans ((congrFun (V_b2 m c) _).trans (asRow_apply _ j'))
  have e5 : (fun (j' : Fin 128) => B5 m c t (ix2 (0 : Fin 1) j')) = fun j' => a8 m c (ix1 j') :=
    funext fun j' => (blk_whole5 m c t 0 j').trans ((congrFun (V_gamma m c) _).trans (asRow_apply _ j'))
  have e6 : (fun (j' : Fin 128) => B6 m c t (ix2 (0 : Fin 1) j')) = fun j' => a9 m c (ix1 j') :=
    funext fun j' => (blk_whole6 m c t 0 j').trans ((congrFun (V_beta m c) _).trans (asRow_apply _ j'))
  have ea : (fun (j' : Fin 128) => (∑ k : Fin 384, B0 m c t (ix2 r k) * B1 m c t (ix2 k j')) + B3 m c t (ix2 (0 : Fin 1) j'))
      = fun j' => (∑ k : Fin 384, catIn (a0 m c) (a1 m c) (a2 m c) (ix2 (⟨(i 0).val, (i 0).isLt⟩ : Fin 400000) k) * w13 (a4 m c) (ix2 k j'))
        + biasRow (a3 m c) (a4 m c) (a5 m c) (ix2 (0 : Fin 1) j') :=
    funext fun j' => by
      rw [(blk_whole3 m c t 0 j').trans (congrFun (V_bias m c) _)]
      refine congrArg (· + _) (Finset.sum_congr rfl fun k _ => ?_)
      rw [blk_in m c t r k ⟨(i 0).val, (i 0).isLt⟩ hi0, (blk_whole1 m c t k j').trans (congrFun (V_w13 m c) _)]
  rw [e2, e4, e5, e6, ea]

/-- What point t writes back is block t of the whole-array function. -/
theorem flushed_eq (c : Dev nD) (t : Fin cfg0.N) :
    (dats m 0 c).flushed 7 t = ((cfg0.win 7).blk t).view.read (Elt Ideal)
      (EdgeOut (a0 m c) (a1 m c) (a2 m c) (a3 m c) (a4 m c) (a5 m c) (a6 m c) (a7 m c) (a8 m c) (a9 m c)) := by
  show (cfg0.win 7).cut (grid0.coords t) ((dats m 0 c).after 7 t) = _
  rw [after_out]
  unfold out7
  rw [View.canon_unit_zero hz]
  simp only [View.ld_unit_zero (S := S5000x384) hz, View.ld_unit_zero (S := S384x128) hz, View.ld_unit_zero (S := S128x128) hz,
    View.ld_unit_zero (S := S1x128) hz]
  obtain ⟨f0, f1, f2, f3, -⟩ := idx_facts t
  funext y
  have hy : (y : S5000x128.Idx) = ix2 (y 0) (y 1) := eq_ix2 y
  show k0_pay1 (F := Ideal) (k0_pay2 (F := Ideal) (B1 m c t) (B2 m c t) (B0 m c t) (B3 m c t) (B4 m c t)) (B5 m c t) (B6 m c t) y
      = EdgeOut _ _ _ _ _ _ _ _ _ _ (((cfg0.win 7).blk t).view.emb y)
  rw [hy]
  refine point_value m c t (y 0) (y 1) _ ?_ ?_
  · show win0_7.index t (0 : Fin 2) * 5000 + 1 * (y 0).val = t.val * 5000 + (y 0).val; omega
  · show win0_7.index t (1 : Fin 2) * 128 + 1 * (y 1).val = (y 1).val; omega

/-! ## The blocks tile the result -/

theorem mem_blk (t : Fin cfg0.N) (i : S400000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v27).slice (win0_7.rect t)).set ↔ _
  rw [View.set_slice_whole, Rect.mem_set_unit]
  exact Iff.rfl

/-- Row e of the result lies in the block of point e / 5000. -/
theorem covered (i : S400000x128.Idx) : ∃ t : Fin cfg0.N, (cfg0.win 7).flush t = true ∧ i ∈ ((cfg0.win 7).blk t).view.set := by
  have hi0 : (i 0).val < 400000 := (i 0).isLt
  have hi1 : (i 1).val < 128 := (i 1).isLt
  obtain ⟨t, ht⟩ := idx_onto ⟨(i 0).val / 5000, by omega⟩
  have q0 : win0_7.index t (0 : Fin 2) = (i 0).val / 5000 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 128 ≤ (i 1).val ∧ (i 1).val < win0_7.index t (1 : Fin 2) * 128 + 128; omega

/-- The result array after the run. -/
theorem final (c : Dev nD) : (dats m 0 c).arrAt 7 cfg0.N
    = EdgeOut (a0 m c) (a1 m c) (a2 m c) (a3 m c) (a4 m c) (a5 m c) (a6 m c) (a7 m c) (a8 m c) (a9 m c) :=
  (dats m 0 c).arrAt_eq_of_cover 7 _ (fun t _ => flushed_eq m c t) covered

/-! ## The run, read -/

/-- Every weakly fair execution terminates with the result array at the whole-array function of the arguments and the
    ten arguments unchanged. -/
theorem run : θ_run defs (onTc (τ := τ) (main (F := Ideal))) ⟨m, fun _ => 0, ρ⟩ fun r => ∀ c : Dev nD,
      r.2.mem ((c.tc : Thread nD τ).loc main_v27)
        = EdgeOut (a0 m c) (a1 m c) (a2 m c) (a3 m c) (a4 m c) (a5 m c) (a6 m c) (a7 m c) (a8 m c) (a9 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨((h c).1 7).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 2).trans (((dats m 0 c).arrAt_in 2 rfl _).trans ((A_eq m c 2).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩)
    (run_main m ρ)

end Cert.KernelIdeal.RegionValue

end
-- ==== Proof.RefRow.lean ====
/-
  The reference's result at edge e and feature j: the row function of RowSpec applied to the row of first-layer
  pre-activations, the contraction over all 512 concatenated input features against W1 plus the bias b1.
-/
import proofs.«404264_j45088566673702_3_alg».proof.Proof.Gen.ReferenceIdeal.Read
import proofs.«404264_j45088566673702_3_alg».proof.Proof.RowSpec
import Idealize.ShloMosaic.Lib.ValueIdx
import Idealize.ShloMosaic.PureOps.Ideal.Laws

noncomputable section

open scoped BigOperators

namespace Cert.EdgeRow.Ref

open Idealize.ShloMosaic Idealize.ShloMosaic.ValueIdx Cert.ReferenceIdeal Cert.ReferenceIdeal.Read

section Stages

variable (x0 : (⟨S25000x128, .f32⟩ : BufTy).Contents (Elt Ideal)) (x1 : (⟨S2x400000, .i32⟩ : BufTy).Contents (Elt Ideal))
    (x2 : (⟨S400000x128, .f32⟩ : BufTy).Contents (Elt Ideal)) (x3 : (⟨S1x128, .f32⟩ : BufTy).Contents (Elt Ideal))
    (x4 : (⟨S512x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S128, .f32⟩ : BufTy).Contents (Elt Ideal)) (x9 : (⟨S128, .f32⟩ : BufTy).Contents (Elt Ideal))

/-- The row of first-layer pre-activations of edge e: the contraction over all 512 input features plus the bias. -/
private def pre (e : Fin 400000) (j' : Fin 128) : EReal :=
  (∑ k : Fin 512, val_main_v20 (F := Ideal) x0 x1 x2 x3 (ix2 e k) * x4 (ix2 k j')) + x5 (ix1 j')

/-- The row of edge e after the second linear layer. -/
private def out (e : Fin 400000) : Fin 128 → EReal :=
  second (fun k j' => x6 (ix2 k j')) (fun j' => x7 (ix1 j')) (hidden (pre x0 x1 x2 x3 x4 x5 e))

/-- The squared deviations of that row from its mean. -/
private def dev2 (e : Fin 400000) (j' : Fin 128) : EReal :=
  (out x0 x1 x2 x3 x4 x5 x6 x7 e j' - mean (out x0 x1 x2 x3 x4 x5 x6 x7 e)) * (out x0 x1 x2 x3 x4 x5 x6 x7 e j' - mean (out x0 x1 x2 x3 x4 x5 x6 x7 e))

/-! Index equations: the index functions the generated reads compose, at an index given by its coordinates. -/

private theorem l21 (e : Fin 400000) (j : Fin 128) (k : Fin 512) : lidx_main_v21 (ix2 e j) k = ix2 e k :=
  funext fun a => Fin.ext (by match a with | ⟨0, _⟩ => rfl | ⟨1, _⟩ => rfl)
private theorem r21 (e : Fin 400000) (j : Fin 128) (k : Fin 512) : ridx_main_v21 (ix2 e j) k = ix2 k j :=
  funext fun a => Fin.ext (by match a with | ⟨0, _⟩ => rfl | ⟨1, _⟩ => rfl)
private theorem i22 (e : Fin 400000) (j : Fin 128) : idx_main_v22 (idx_main_v23 (ix2 e j)) = ix1 j :=
  funext fun a => Fin.ext (by match a with | ⟨0, _⟩ => rfl)
private theorem l26 (e : Fin 400000) (j k : Fin 128) : lidx_main_v26 (ix2 e j) k = ix2 e k :=
  funext fun a => Fin.ext (by match a with | ⟨0, _⟩ => rfl | ⟨1, _⟩ => rfl)
private theorem r26 (e : Fin 400000) (j k : Fin 128) : ridx_main_v26 (ix2 e j) k = ix2 k j :=
  funext fun a => Fin.ext (by match a with | ⟨0, _⟩ => rfl | ⟨1, _⟩ => rfl)
private theorem i27 (e : Fin 400000) (j : Fin 128) : idx_main_v27 (idx_main_v28 (ix2 e j)) = ix1 j :=
  funext fun a => Fin.ext (by match a with | ⟨0, _⟩ => rfl)
private theorem i30 (e : Fin 400000) (c : Fin 1) (k : Fin 128) : idx_main_v30 (idx_main_v31 (ix2 e c)) k = ix2 e k :=
  funext fun a => Fin.ext (by match a with | ⟨0, _⟩ => rfl | ⟨1, _⟩ => rfl)
private theorem i34 (e : Fin 400000) (j : Fin 128) : idx_main_v34 (ix2 e j) = ix2 e (0 : Fin 1) :=
  funext fun a => Fin.ext (by match a with | ⟨0, _⟩ => rfl | ⟨1, _⟩ => rfl)
private theorem i37 (e : Fin 400000) (c : Fin 1) (k : Fin 128) : idx_main_v37 (idx_main_v38 (ix2 e c)) k = ix2 e k :=
  funext fun a => Fin.ext (by match a with | ⟨0, _⟩ => rfl | ⟨1, _⟩ => rfl)
private theorem i41 (e : Fin 400000) (j : Fin 128) : idx_main_v41 (ix2 e j) = ix2 e (0 : Fin 1) :=
  funext fun a => Fin.ext (by match a with | ⟨0, _⟩ => rfl | ⟨1, _⟩ => rfl)
private theorem i46 (e : Fin 400000) (j : Fin 128) : idx_main_v46 (ix2 e j) = ix2 e (0 : Fin 1) :=
  funext fun a => Fin.ext (by match a with | ⟨0, _⟩ => rfl | ⟨1, _⟩ => rfl)
private theorem i48 (e : Fin 400000) (j : Fin 128) : idx_main_v48 (idx_main_v49 (ix2 e j)) = ix1 j :=
  funext fun a => Fin.ext (by match a with | ⟨0, _⟩ => rfl)
private theorem i51 (e : Fin 400000) (j : Fin 128) : idx_main_v51 (idx_main_v52 (ix2 e j)) = ix1 j :=
  funext fun a => Fin.ext (by match a with | ⟨0, _⟩ => rfl)

/-- The first layer's pre-activation at (e, j): a contraction plus a broadcast bias. -/
private theorem pre_at (e : Fin 400000) (j : Fin 128) :
    val_main_v24 (F := Ideal) x0 x1 x2 x3 x4 x5 (ix2 e j) = pre x0 x1 x2 x3 x4 x5 e j := by
  rw [val_main_v24_apply, val_main_v21_apply, val_main_v23_apply, val_main_v22_apply, Ideal.addf_def, i22]
  unfold pre
  exact congrArg (· + x5 (ix1 j)) (Finset.sum_congr rfl fun k _ => by rw [l21, r21])

/-- The rectifier: the maximum with a broadcast zero. -/
private theorem hid_at (e : Fin 400000) (j : Fin 128) :
    val_main_v25 (F := Ideal) x0 x1 x2 x3 x4 x5 (ix2 e j) = hidden (pre x0 x1 x2 x3 x4 x5 e) j := by
  rw [val_main_v25_apply, val_main_call0_v0_apply, val_main_call0_cst_apply, pre_at, Ideal.maximumf_def, Ideal.ofBits_def]
  rfl

/-- The second linear layer at (e, j). -/
private theorem out_at (e : Fin 400000) (j : Fin 128) :
    val_main_v29 (F := Ideal) x0 x1 x2 x3 x4 x5 x6 x7 (ix2 e j) = out x0 x1 x2 x3 x4 x5 x6 x7 e j := by
  rw [val_main_v29_apply, val_main_v26_apply, val_main_v28_apply, val_main_v27_apply, Ideal.addf_def, i27]
  unfold out second
  exact congrArg (· + x7 (ix1 j)) (Finset.sum_congr rfl fun k _ => by rw [l26, r26, hid_at])

/-- The row's mean, kept as a column: the sum from a zero initial value, divided by 128. -/
private theorem mean_at (e : Fin 400000) (c : Fin 1) :
    val_main_v33 (F := Ideal) x0 x1 x2 x3 x4 x5 x6 x7 (ix2 e c) = mean (out x0 x1 x2 x3 x4 x5 x6 x7 e) := by
  rw [val_main_v33_apply, val_main_v31_apply, val_main_v30_apply, val_main_v32_apply, val_main_cst_3_apply, val_main_cst_apply]
  simp only [Ideal.hostDivf_def, Ideal.ofBits_def, Ideal.ofBits_zero_f32, zero_add]
  unfold mean
  exact congrArg (Ideal.div · c128) (Finset.sum_congr rfl fun k _ => by rw [i30, out_at])

/-- The centred row (the program computes it twice, once for the variance and once for the result). -/
private theorem cen_at (e : Fin 400000) (j : Fin 128) :
    val_main_v35 (F := Ideal) x0 x1 x2 x3 x4 x5 x6 x7 (ix2 e j) = out x0 x1 x2 x3 x4 x5 x6 x7 e j - mean (out x0 x1 x2 x3 x4 x5 x6 x7 e) := by
  rw [val_main_v35_apply, val_main_v34_apply, i34, mean_at, out_at, Ideal.subf_def]

private theorem cen_at' (e : Fin 400000) (j : Fin 128) :
    val_main_v42 (F := Ideal) x0 x1 x2 x3 x4 x5 x6 x7 (ix2 e j) = out x0 x1 x2 x3 x4 x5 x6 x7 e j - mean (out x0 x1 x2 x3 x4 x5 x6 x7 e) := by
  rw [val_main_v42_apply, val_main_v41_apply, i41, mean_at, out_at, Ideal.subf_def]

/-- The variance, kept as a column: the mean of the squared deviations. -/
private theorem var_at (e : Fin 400000) (c : Fin 1) :
    val_main_v40 (F := Ideal) x0 x1 x2 x3 x4 x5 x6 x7 (ix2 e c) = mean (dev2 x0 x1 x2 x3 x4 x5 x6 x7 e) := by
  rw [val_main_v40_apply, val_main_v38_apply, val_main_v37_apply, val_main_v39_apply, val_main_cst_5_apply, val_main_cst_4_apply]
  simp only [Ideal.hostDivf_def, Ideal.ofBits_def, Ideal.ofBits_zero_f32, zero_add]
  unfold mean
  exact congrArg (Ideal.div · c128) (Finset.sum_congr rfl fun k _ => by
    rw [i37, val_main_v36_apply, cen_at, Ideal.mulf_def]; rfl)

/-- The reciprocal square root of the shifted variance, broadcast along the row. -/
private theorem rs_at (e : Fin 400000) (j : Fin 128) :
    val_main_v46 (F := Ideal) x0 x1 x2 x3 x4 x5 x6 x7 (ix2 e j) = Ideal.rsqrt (mean (dev2 x0 x1 x2 x3 x4 x5 x6 x7 e) + eps) := by
  rw [val_main_v46_apply, i46, val_main_v45_apply, val_main_v44_apply, var_at, val_main_v43_apply, val_main_cst_6_apply,
    Ideal.addf_def, Ideal.hostUnary_rsqrt_def, Ideal.ofBits_def]

end Stages

/-- The reference's last stage read at (e, j). -/
theorem ref_at (x0 : (⟨S25000x128, .f32⟩ : BufTy).Contents (Elt Ideal)) (x1 : (⟨S2x400000, .i32⟩ : BufTy).Contents (Elt Ideal))
    (x2 : (⟨S400000x128, .f32⟩ : BufTy).Contents (Elt Ideal)) (x3 : (⟨S1x128, .f32⟩ : BufTy).Contents (Elt Ideal))
    (x4 : (⟨S512x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S128, .f32⟩ : BufTy).Contents (Elt Ideal)) (x9 : (⟨S128, .f32⟩ : BufTy).Contents (Elt Ideal))
    (e : Fin 400000) (j : Fin 128) :
    val_main_v53 (F := Ideal) x0 x1 x2 x3 x4 x5 x6 x7 x8 x9 (ix2 e j)
      = Cert.EdgeRow.tail (fun k j' => x6 (ix2 k j')) (fun j' => x7 (ix1 j')) (fun j' => x8 (ix1 j')) (fun j' => x9 (ix1 j'))
          (fun j' => (∑ k : Fin 512, val_main_v20 (F := Ideal) x0 x1 x2 x3 (ix2 e k) * x4 (ix2 k j')) + x5 (ix1 j')) j := by
  rw [val_main_v53_apply, val_main_v50_apply, val_main_v47_apply, cen_at', rs_at, val_main_v49_apply, val_main_v48_apply,
    val_main_v52_apply, val_main_v51_apply, i48, i51]
  simp only [Ideal.addf_def, Ideal.mulf_def]
  rfl

end Cert.EdgeRow.Ref

end
-- ==== Proof.FirstLayer.lean ====
/-
  The two groupings of the first layer agree. Reading the four-piece concatenation [target row, source row, edge
  attributes, global attributes] against all 512 rows of W1 and adding b1 equals reading the three-piece concatenation
  against the first 384 rows of W1 and adding the effective bias b1 + (global attributes · the last 128 rows of W1):
  the 512-term sum splits at 384, and the last 128 terms are exactly the folded contribution.
-/
import proofs.«404264_j45088566673702_3_alg».proof.Proof.RowSpec
import proofs.«404264_j45088566673702_3_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.EdgeRow.Bridge

open Idealize.ShloMosaic Idealize.ShloMosaic.ValueIdx

abbrev SE : Shape := ⟨2, ![400000, 128]⟩
abbrev SE3 : Shape := ⟨2, ![400000, 384]⟩
abbrev SE4 : Shape := ⟨2, ![400000, 512]⟩

/-- The slice of the first 384 rows of a 512-row matrix reads the matrix at the same place. -/
private theorem slice_lo_apply (x4 : FVec Ideal ⟨2, ![512, 128]⟩ .f32)
    (hs1 : (⟨2, ![512, 128]⟩ : Shape).Slices ![0, 0] ⟨2, ![384, 128]⟩) (k : Fin 384) (j : Fin 128) :
    extractStridedSlice ⟨2, ![384, 128]⟩ ![0, 0] x4 hs1 (ix2 k j)
      = x4 (ix2 (⟨k.val, by have := k.isLt; omega⟩ : Fin 512) j) := by
  refine extractStridedSlice_apply _ x4 hs1 _ _ fun a => ?_
  match a with
  | ⟨0, _⟩ => show k.val = 0 + k.val; omega
  | ⟨1, _⟩ => show j.val = 0 + j.val; omega

/-- The slice of the last 128 rows of a 512-row matrix reads the matrix 384 rows further down. -/
private theorem slice_hi_apply (x4 : FVec Ideal ⟨2, ![512, 128]⟩ .f32)
    (hs2 : (⟨2, ![512, 128]⟩ : Shape).Slices ![384, 0] ⟨2, ![128, 128]⟩) (k : Fin 128) (j : Fin 128) :
    extractStridedSlice ⟨2, ![128, 128]⟩ ![384, 0] x4 hs2 (ix2 k j)
      = x4 (ix2 (⟨384 + k.val, by have := k.isLt; omega⟩ : Fin 512) j) := by
  refine extractStridedSlice_apply _ x4 hs2 _ _ fun a => ?_
  match a with
  | ⟨0, _⟩ => show 384 + k.val = 384 + k.val; rfl
  | ⟨1, _⟩ => show j.val = 0 + j.val; omega

/-- A 128-vector reshaped to a single row reads the vector at the column. -/
private theorem row_cast_apply (x5 : FVec Ideal ⟨1, ![128]⟩ .f32)
    (hsc : (⟨1, ![128]⟩ : Shape).ShapeCasts ⟨2, ![1, 128]⟩) (j : Fin 128) :
    shapeCast ⟨2, ![1, 128]⟩ x5 hsc (ix2 (0 : Fin 1) j) = x5 (ix1 j) :=
  shapeCast_apply x5 hsc _ _ (by
    rw [Shape.rowMajor_val_two, Shape.rowMajor_val_one]
    show j.val = 0 * 128 + j.val
    omega)

/-- The three-piece concatenation along the columns, read at a column of its piece number p (columns 128 p + q), is
    that piece at column q. -/
private theorem cat3_apply (XT XS EA : FVec Ideal SE .f32) (h3 : Shape.Concatenates [SE, SE, SE] SE3 1)
    (e : Fin 400000) (k : Fin 384) (q : Fin 128) (p : Nat) (hp : p < 3) (hk : k.val = 128 * p + q.val) :
    concatenate SE3 1 [⟨SE, XT⟩, ⟨SE, XS⟩, ⟨SE, EA⟩] h3 (ix2 e k)
      = ([XT, XS, EA][p]'(by simpa using hp)) (ix2 e q) := by
  have hi : ∀ b : Fin SE.rank, b.cast (rfl : SE.rank = SE3.rank) ≠ (1 : Fin SE3.rank) →
      ((ix2 e q : SE.Idx) b).val = ((ix2 e k : SE3.Idx) (b.cast rfl)).val := fun b hb => by
    match b with
    | ⟨0, _⟩ => rfl
    | ⟨1, _⟩ => exact absurd rfl hb
  match p, hp with
  | 0, _ =>
    exact concatenate_apply_piece (1 : Fin SE3.rank) [⟨SE, XT⟩, ⟨SE, XS⟩, ⟨SE, EA⟩] h3 (ix2 e k) 0 (by simp) SE XT rfl rfl 0 (by simp) (ix2 e q) hi
      (by show 0 + q.val = k.val; omega)
  | 1, _ =>
    exact concatenate_apply_piece (1 : Fin SE3.rank) [⟨SE, XT⟩, ⟨SE, XS⟩, ⟨SE, EA⟩] h3 (ix2 e k) 1 (by simp) SE XS rfl rfl 128 (by simp) (ix2 e q) hi
      (by show 128 + q.val = k.val; omega)
  | 2, _ =>
    exact concatenate_apply_piece (1 : Fin SE3.rank) [⟨SE, XT⟩, ⟨SE, XS⟩, ⟨SE, EA⟩] h3 (ix2 e k) 2 (by simp) SE EA rfl rfl 256 (by simp) (ix2 e q) hi
      (by show 256 + q.val = k.val; omega)

/-- The four-piece concatenation along the columns, read at a column of its piece number p (columns 128 p + q), is
    that piece at column q. -/
private theorem cat4_apply (XT XS EA GB : FVec Ideal SE .f32) (h4 : Shape.Concatenates [SE, SE, SE, SE] SE4 1)
    (e : Fin 400000) (k : Fin 512) (q : Fin 128) (p : Nat) (hp : p < 4) (hk : k.val = 128 * p + q.val) :
    concatenate SE4 1 [⟨SE, XT⟩, ⟨SE, XS⟩, ⟨SE, EA⟩, ⟨SE, GB⟩] h4 (ix2 e k)
      = ([XT, XS, EA, GB][p]'(by simpa using hp)) (ix2 e q) := by
  have hi : ∀ b : Fin SE.rank, b.cast (rfl : SE.rank = SE4.rank) ≠ (1 : Fin SE4.rank) →
      ((ix2 e q : SE.Idx) b).val = ((ix2 e k : SE4.Idx) (b.cast rfl)).val := fun b hb => by
    match b with
    | ⟨0, _⟩ => rfl
    | ⟨1, _⟩ => exact absurd rfl hb
  match p, hp with
  | 0, _ =>
    exact concatenate_apply_piece (1 : Fin SE4.rank) [⟨SE, XT⟩, ⟨SE, XS⟩, ⟨SE, EA⟩, ⟨SE, GB⟩] h4 (ix2 e k) 0 (by simp) SE XT rfl rfl
      0 (by simp) (ix2 e q) hi (by show 0 + q.val = k.val; omega)
  | 1, _ =>
    exact concatenate_apply_piece (1 : Fin SE4.rank) [⟨SE, XT⟩, ⟨SE, XS⟩, ⟨SE, EA⟩, ⟨SE, GB⟩] h4 (ix2 e k) 1 (by simp) SE XS rfl rfl
      128 (by simp) (ix2 e q) hi (by show 128 + q.val = k.val; omega)
  | 2, _ =>
    exact concatenate_apply_piece (1 : Fin SE4.rank) [⟨SE, XT⟩, ⟨SE, XS⟩, ⟨SE, EA⟩, ⟨SE, GB⟩] h4 (ix2 e k) 2 (by simp) SE EA rfl rfl
      256 (by simp) (ix2 e q) hi (by show 256 + q.val = k.val; omega)
  | 3, _ =>
    exact concatenate_apply_piece (1 : Fin SE4.rank) [⟨SE, XT⟩, ⟨SE, XS⟩, ⟨SE, EA⟩, ⟨SE, GB⟩] h4 (ix2 e k) 3 (by simp) SE GB rfl rfl
      384 (by simp) (ix2 e q) hi (by show 384 + q.val = k.val; omega)

/-- On the first 384 columns the two concatenations read the same piece at the same place. -/
private theorem cat4_eq_cat3 (XT XS EA GB : FVec Ideal SE .f32) (h3 : Shape.Concatenates [SE, SE, SE] SE3 1)
    (h4 : Shape.Concatenates [SE, SE, SE, SE] SE4 1) (e : Fin 400000) (k : Fin 384) :
    concatenate SE4 1 [⟨SE, XT⟩, ⟨SE, XS⟩, ⟨SE, EA⟩, ⟨SE, GB⟩] h4
        (ix2 e (⟨k.val, by have := k.isLt; omega⟩ : Fin 512))
      = concatenate SE3 1 [⟨SE, XT⟩, ⟨SE, XS⟩, ⟨SE, EA⟩] h3 (ix2 e k) := by
  have hlt := k.isLt
  rcases (by omega : k.val < 128 ∨ (128 ≤ k.val ∧ k.val < 256) ∨ (256 ≤ k.val ∧ k.val < 384)) with h | h | h
  · exact (cat4_apply XT XS EA GB h4 e _ ⟨k.val, h⟩ 0 (by omega) (by show k.val = 128 * 0 + k.val; omega)).trans
      (cat3_apply XT XS EA h3 e k ⟨k.val, h⟩ 0 (by omega) (by show k.val = 128 * 0 + k.val; omega)).symm
  · exact (cat4_apply XT XS EA GB h4 e _ ⟨k.val - 128, by omega⟩ 1 (by omega)
        (by show k.val = 128 * 1 + (k.val - 128); omega)).trans
      (cat3_apply XT XS EA h3 e k ⟨k.val - 128, by omega⟩ 1 (by omega)
        (by show k.val = 128 * 1 + (k.val - 128); omega)).symm
  · exact (cat4_apply XT XS EA GB h4 e _ ⟨k.val - 256, by omega⟩ 2 (by omega)
        (by show k.val = 128 * 2 + (k.val - 256); omega)).trans
      (cat3_apply XT XS EA h3 e k ⟨k.val - 256, by omega⟩ 2 (by omega)
        (by show k.val = 128 * 2 + (k.val - 256); omega)).symm

/-- The first layer's pre-activation at (e, j), summed either way. -/
theorem acc_eq (XT XS EA GB : FVec Ideal SE .f32) (x3 : FVec Ideal ⟨2, ![1, 128]⟩ .f32) (x4 : FVec Ideal ⟨2, ![512, 128]⟩ .f32)
    (x5 : FVec Ideal ⟨1, ![128]⟩ .f32)
    (hGB : ∀ (e : Fin 400000) (k : Fin 128), GB (ix2 e k) = x3 (ix2 (0 : Fin 1) k))
    (h3 : Shape.Concatenates [SE, SE, SE] SE3 1) (h4 : Shape.Concatenates [SE, SE, SE, SE] SE4 1)
    (hs1 : (⟨2, ![512, 128]⟩ : Shape).Slices ![0, 0] ⟨2, ![384, 128]⟩)
    (hs2 : (⟨2, ![512, 128]⟩ : Shape).Slices ![384, 0] ⟨2, ![128, 128]⟩)
    (hsc : (⟨1, ![128]⟩ : Shape).ShapeCasts ⟨2, ![1, 128]⟩)
    (d : DotDims ⟨2, ![1, 128]⟩ ⟨2, ![128, 128]⟩ ⟨2, ![1, 128]⟩) (hd : d = DotDims.plain 1 128 128)
    (e : Fin 400000) (j : Fin 128) :
    (∑ k : Fin 384, concatenate SE3 1 [⟨SE, XT⟩, ⟨SE, XS⟩, ⟨SE, EA⟩] h3 (ix2 e k)
        * extractStridedSlice ⟨2, ![384, 128]⟩ ![0, 0] x4 hs1 (ix2 k j))
      + (addf (shapeCast ⟨2, ![1, 128]⟩ x5 hsc)
          (Host.dotGeneral d none x3 (extractStridedSlice ⟨2, ![128, 128]⟩ ![384, 0] x4 hs2))) (ix2 (0 : Fin 1) j)
    = (∑ k : Fin 512, concatenate SE4 1 [⟨SE, XT⟩, ⟨SE, XS⟩, ⟨SE, EA⟩, ⟨SE, GB⟩] h4 (ix2 e k) * x4 (ix2 k j))
      + x5 (ix1 j) := by
  subst hd
  -- the effective bias at (0, j): b1 at j plus the 128-term contraction of the global row with the last rows of W1
  rw [addf_apply, row_cast_apply,
    Cert.LibPlainDot.dotGeneral_plain_apply 1 128 128 none x3
      (extractStridedSlice ⟨2, ![128, 128]⟩ ![384, 0] x4 hs2) (ix2 (0 : Fin 1) j)]
  symm
  -- split the 512-term sum at 384; the two halves agree term by term
  refine Cert.EdgeRow.sum_split_add
    (fun k : Fin 512 => concatenate SE4 1 [⟨SE, XT⟩, ⟨SE, XS⟩, ⟨SE, EA⟩, ⟨SE, GB⟩] h4 (ix2 e k) * x4 (ix2 k j))
    (fun k : Fin 384 => concatenate SE3 1 [⟨SE, XT⟩, ⟨SE, XS⟩, ⟨SE, EA⟩] h3 (ix2 e k)
        * extractStridedSlice ⟨2, ![384, 128]⟩ ![0, 0] x4 hs1 (ix2 k j))
    (fun k : Fin 128 => x3 (ix2 (0 : Fin 1) k) * extractStridedSlice ⟨2, ![128, 128]⟩ ![384, 0] x4 hs2 (ix2 k j))
    (x5 (ix1 j)) (fun k => ?_) (fun k => ?_)
  · -- a column below 384: the same piece of both concatenations, and the same row of W1
    show concatenate SE4 1 [⟨SE, XT⟩, ⟨SE, XS⟩, ⟨SE, EA⟩, ⟨SE, GB⟩] h4 (ix2 e (⟨k.val, _⟩ : Fin 512))
        * x4 (ix2 (⟨k.val, _⟩ : Fin 512) j) = _
    rw [cat4_eq_cat3 XT XS EA GB h3 h4 e k, slice_lo_apply x4 hs1 k j]
  · -- a column 384 + k: the fourth piece is the global row, and row 384 + k of W1 is row k of its last slice
    show concatenate SE4 1 [⟨SE, XT⟩, ⟨SE, XS⟩, ⟨SE, EA⟩, ⟨SE, GB⟩] h4 (ix2 e (⟨384 + k.val, _⟩ : Fin 512))
        * x4 (ix2 (⟨384 + k.val, _⟩ : Fin 512) j) = _
    rw [cat4_apply XT XS EA GB h4 e _ k 3 (by omega) (by show 384 + k.val = 128 * 3 + k.val; omega),
      slice_hi_apply x4 hs2 k j]
    show GB (ix2 e k) * _ = _
    rw [hGB e k]

end Cert.EdgeRow.Bridge

end
-- ==== Proof.Agree.lean ====
/-
  The reference's result is the kernel's whole-array function of the same arguments.

  At edge e and feature j both are the row function (rectifier, second linear layer, layer normalisation) of edge e's
  row of first-layer pre-activations. The reference sums the products of the four-piece concatenation [target row,
  source row, edge attributes, global attributes] with all 512 rows of the first weight matrix and adds b1; the kernel
  sums the products of the three-piece concatenation with the first 384 rows and adds the effective bias, b1 plus the
  global attributes' products with the last 128 rows. The 512-term sum splits at 384, and its tail is the folded
  contribution: one sum, grouped two ways.
-/
import proofs.«404264_j45088566673702_3_alg».proof.Proof.ValueIdeal
import proofs.«404264_j45088566673702_3_alg».proof.Proof.RefRow
import proofs.«404264_j45088566673702_3_alg».proof.Proof.FirstLayer
import proofs.«404264_j45088566673702_3_alg».proof.Proof.Gen.ReferenceIdeal.Read

noncomputable section

open scoped BigOperators

namespace Cert.EdgeRow.Agree

open Idealize.ShloMosaic Idealize.ShloMosaic.ValueIdx
open Cert.KernelIdeal.RegionValue

abbrev X0 := FVec Ideal Cert.KernelIdeal.S25000x128 .f32
abbrev X1 := IVec Cert.KernelIdeal.S2x400000 32
abbrev X2 := FVec Ideal Cert.KernelIdeal.S400000x128 .f32
abbrev X3 := FVec Ideal Cert.KernelIdeal.S1x128 .f32
abbrev X4 := FVec Ideal Cert.KernelIdeal.S512x128 .f32
abbrev XV := FVec Ideal Cert.KernelIdeal.S128 .f32
abbrev X6 := FVec Ideal Cert.KernelIdeal.S128x128 .f32

/-- The reference's broadcast of the global attributes has the global attributes' row in every row. -/
theorem global_rows (x3 : X3) (e : Fin 400000) (k : Fin 128) :
    Cert.ReferenceIdeal.Read.val_main_v19 (F := Ideal) x3 (ix2 e k) = x3 (ix2 (0 : Fin 1) k) := by
  rw [Cert.ReferenceIdeal.Read.val_main_v19_apply, Cert.ReferenceIdeal.Read.val_main_v18_apply]
  refine congrArg x3 (funext fun a => Fin.ext ?_)
  match a with
  | ⟨0, _⟩ => rfl
  | ⟨1, _⟩ => exact Nat.mod_eq_of_lt k.isLt

/-- The reference gathers the target rows exactly as the kernel does: the same operations on the same arguments. -/
theorem tgt_rows (x0 : X0) (x1 : X1) :
    Cert.ReferenceIdeal.Read.val_main_v17 (F := Ideal) x0 x1
      = rowsAt x0 (indexRow 1 Cert.KernelIdeal.Facts₀.slices_S2x400000_S1x400000_1_0 x1) := rfl

/-- And the source rows. -/
theorem src_rows (x0 : X0) (x1 : X1) :
    Cert.ReferenceIdeal.Read.val_main_v10 (F := Ideal) x0 x1
      = rowsAt x0 (indexRow 0 Cert.KernelIdeal.Facts₀.slices_S2x400000_S1x400000_0_0 x1) := rfl

/-- The reference's concatenated input: the kernel's three pieces and the broadcast global attributes. -/
theorem cat_four (x0 : X0) (x1 : X1) (x2 : X2) (x3 : X3) :
    Cert.ReferenceIdeal.Read.val_main_v20 (F := Ideal) x0 x1 x2 x3
      = concatenate Cert.EdgeRow.Bridge.SE4 1
          [⟨Cert.EdgeRow.Bridge.SE, rowsAt x0 (indexRow 1 Cert.KernelIdeal.Facts₀.slices_S2x400000_S1x400000_1_0 x1)⟩,
           ⟨Cert.EdgeRow.Bridge.SE, rowsAt x0 (indexRow 0 Cert.KernelIdeal.Facts₀.slices_S2x400000_S1x400000_0_0 x1)⟩,
           ⟨Cert.EdgeRow.Bridge.SE, x2⟩, ⟨Cert.EdgeRow.Bridge.SE, Cert.ReferenceIdeal.Read.val_main_v19 (F := Ideal) x3⟩]
          Cert.ReferenceIdeal.Facts₀.concatenates_S400000x128_S400000x128_S400000x128_S400000x128_S400000x512_d1 := by
  unfold Cert.ReferenceIdeal.Read.val_main_v20
  rw [tgt_rows, src_rows]

/-- The small product global attributes . (last 128 weight rows) is a plain row-by-matrix product. -/
theorem small_dot_plain : Cert.KernelIdeal.dot_S1x128_S128x128_S1x128_1_0_0_1_n_n = DotDims.plain 1 128 128 := rfl

/-- The first layer's pre-activation at (e, j'), the kernel's grouping against the reference's. -/
theorem first_layer (x0 : X0) (x1 : X1) (x2 : X2) (x3 : X3) (x4 : X4) (x5 : XV) (e : Fin 400000) (j' : Fin 128) :
    (∑ k : Fin 384, catIn x0 x1 x2 (ix2 e k) * w13 x4 (ix2 k j')) + biasRow x3 x4 x5 (ix2 (0 : Fin 1) j')
      = (∑ k : Fin 512, Cert.ReferenceIdeal.Read.val_main_v20 (F := Ideal) x0 x1 x2 x3 (ix2 e k) * x4 (ix2 k j')) + x5 (ix1 j') := by
  rw [cat_four]
  unfold catIn w13 biasRow
  have h := Cert.EdgeRow.Bridge.acc_eq
    (rowsAt x0 (indexRow 1 Cert.KernelIdeal.Facts₀.slices_S2x400000_S1x400000_1_0 x1))
    (rowsAt x0 (indexRow 0 Cert.KernelIdeal.Facts₀.slices_S2x400000_S1x400000_0_0 x1)) x2
    (Cert.ReferenceIdeal.Read.val_main_v19 (F := Ideal) x3) x3 x4 x5 (global_rows x3)
    Cert.KernelIdeal.Facts₀.concatenates_S400000x128_S400000x128_S400000x128_S400000x384_d1
    Cert.ReferenceIdeal.Facts₀.concatenates_S400000x128_S400000x128_S400000x128_S400000x128_S400000x512_d1
    Cert.KernelIdeal.Facts₀.slices_S512x128_S384x128_0_0 Cert.KernelIdeal.Facts₀.slices_S512x128_S128x128_384_0
    Cert.KernelIdeal.Facts₀.shapeCasts_S128_S1x128
    Cert.KernelIdeal.dot_S1x128_S128x128_S1x128_1_0_0_1_n_n small_dot_plain e j'
  rw [← h]

/-- The kernel's whole-array function read at (e, j). -/
theorem edgeOut_apply (x0 : X0) (x1 : X1) (x2 : X2) (x3 : X3) (x4 : X4) (x5 : XV) (x6 : X6) (x7 x8 x9 : XV)
    (e : Fin 400000) (j : Fin 128) :
    EdgeOut x0 x1 x2 x3 x4 x5 x6 x7 x8 x9 (ix2 e j)
      = Cert.EdgeRow.tail (fun k j' => x6 (ix2 k j')) (fun j' => x7 (ix1 j')) (fun j' => x8 (ix1 j')) (fun j' => x9 (ix1 j'))
          (fun j' => (∑ k : Fin 384, catIn x0 x1 x2 (ix2 e k) * w13 x4 (ix2 k j')) + biasRow x3 x4 x5 (ix2 (0 : Fin 1) j')) j := rfl

/-- The reference's last stage is the kernel's whole-array function. -/
theorem result_eq (x0 : X0) (x1 : X1) (x2 : X2) (x3 : X3) (x4 : X4) (x5 : XV) (x6 : X6) (x7 x8 x9 : XV) :
    Cert.ReferenceIdeal.Read.val_main_v53 (F := Ideal) x0 x1 x2 x3 x4 x5 x6 x7 x8 x9
      = EdgeOut x0 x1 x2 x3 x4 x5 x6 x7 x8 x9 := by
  funext i
  obtain ⟨e, j, rfl⟩ : ∃ (e : Fin 400000) (j : Fin 128), i = ix2 e j := ⟨i 0, i 1, eq_ix2 i⟩
  rw [Cert.EdgeRow.Ref.ref_at, edgeOut_apply]
  exact congrArg
    (fun a => Cert.EdgeRow.tail (fun k j' => x6 (ix2 k j')) (fun j' => x7 (ix1 j')) (fun j' => x8 (ix1 j')) (fun j' => x9 (ix1 j')) a j)
    (funext fun j' => (first_layer x0 x1 x2 x3 x4 x5 e j').symm)

end Cert.EdgeRow.Agree

end
-- ==== Proof.lean ====
/-
  The edge block: for each of 400000 edges, the node features of its target and source nodes and its edge attributes,
  together with the global attributes, go through a two-layer perceptron with a rectifier and then a layer normalisation
  over the 128 output features.

  The kernel gathers the node rows and concatenates the three per-edge pieces on the host, folds the global attributes'
  contribution to the first layer into the bias once, and runs the rest in one pipelined region of 80 blocks of 5000
  edges. The reference concatenates all four pieces and applies the layers to whole arrays. On the extended reals the two
  agree entry by entry: the reference's contraction over 512 input features splits into the kernel's contraction over
  384 plus the folded bias term, using only that addition is commutative and associative; everything after the first
  layer acts on one edge's row at a time and is the same function on both sides.

  The three frames: the two kernel programs run to the end with their arguments unchanged (host operations, then the
  region, whose body only loads its input windows and stores one covering block); the reference is host operations only.
  The idealization rewrote nothing, so its conjunct is trivial.
-/
import proofs.«404264_j45088566673702_3_alg».proof.Defs
import proofs.«404264_j45088566673702_3_alg».proof.Proof.Gen.Kernel
import proofs.«404264_j45088566673702_3_alg».proof.Proof.Gen.KernelIdeal
import proofs.«404264_j45088566673702_3_alg».proof.Proof.Gen.ReferenceIdeal
import proofs.«404264_j45088566673702_3_alg».proof.Proof.Gen.Pre_finite_inputs
import proofs.«404264_j45088566673702_3_alg».proof.Proof.Gen.ReferenceIdeal.Run
import proofs.«404264_j45088566673702_3_alg».proof.Proof.Gen.ReferenceIdeal.Read
import proofs.«404264_j45088566673702_3_alg».proof.Proof.FrameBits
import proofs.«404264_j45088566673702_3_alg».proof.Proof.FrameIdeal
import proofs.«404264_j45088566673702_3_alg».proof.Proof.ValueIdeal
import proofs.«404264_j45088566673702_3_alg».proof.Proof.Agree
import Idealize.ShloMosaic.Adequacy
import Idealize.ShloMosaic.Init

noncomputable section

namespace Cert.Proof

open Idealize.ShloMosaic Idealize.SL.Sem

theorem frame_k : Cert.frame_Kernel := fun m ρ _ => Cert.Kernel.Region.frame m ρ

theorem frame_ki : Cert.frame_KernelIdeal := fun m ρ _ => Cert.KernelIdeal.Region.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs, from memories agreeing on the arguments, end with the result array at the same function of
    the arguments. -/
theorem algebraic : Cert.algebraic_KernelIdeal_ReferenceIdeal := by
  intro m ρ m' ρ' _ hagree
  refine ⟨_, Cert.KernelIdeal.RegionValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v53_eq, h0, h1, h2, h3, h4, h5, h6, h7, h8, h9]
  exact Cert.EdgeRow.Agree.result_eq _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
